-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4194304 : Shape := ⟨2, ![2, 4194304]⟩
abbrev S10x2 : Shape := ⟨2, ![10, 2]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩

class Facts : Prop where
  bcast_S_S2x4194304 : S_.BroadcastsInDim S2x4194304 (![] : Fin 0 → Fin S2x4194304.rank)
  reducesTo_S2x4194304_S_d0_1 : S2x4194304.ReducesTo [0, 1] S_
  h_S_ : 0 < S_.numel
  bcast_S_S10x2 : S_.BroadcastsInDim S10x2 (![] : Fin 0 → Fin S10x2.rank)
  reducesTo_S10x2_S_d0_1 : S10x2.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S10 .f32) (main_arg5 : FVec F S1x10 .f32) (main_arg6 : FVec F S1 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S1x10 .f32 := Host.absf main_arg5
  let main_cst_8 : FVec F S_ .f32 := constant S_ .f32 0x7F800000#32
  let main_v25 : FVec F S1x10 .f32 := broadcastInDim S1x10 ![] bcast_S_S1x10 main_cst_8
  let main_v26 : IVec S1x10 1 := cmpf .olt main_v24 main_v25
  let main_c_9 : IVec S_ 1 := constantI S_ 1 1#1
  let main_v27 : IVec S_ 1 := (fun x v => Host.reduce IntOp.andi x v reducesTo_S1x10_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x4194304 .f32) (main_arg1 : FVec F S10x2 .f32) (main_arg2 : FVec F S10 .f32) (main_arg3 : FVec F S10x10 .f32) (main_arg4 : FVec F S10 .f32) (main_arg5 : FVec F S1x10 .f32) (main_arg6 : FVec F S1 .f32) : IVec S_ 1 :=
  let main_v0 : FVec F S2x4194304 .f32 := Host.absf main_arg0
  let main_cst : FVec F S_ .f32 := constant S_ .f32 0x7F800000#32
  let main_v1 : FVec F S2x4194304 .f32 := broadcastInDim S2x4194304 ![] bcast_S_S2x4194304 main_cst
  let main_v2 : IVec S2x4194304 1 := cmpf .olt main_v0 main_v1
  let main_c : IVec S_ 1 := constantI S_ 1 1#1
  let main_v3 : IVec S_ 1 := (fun x v => Host.reduce IntOp.andi x v reducesTo_S2x4194304_S_d0_1 h_S_) main_v2 main_c
  let main_v4 : FVec F S10x2 .f32 := Host.absf main_arg1
  let main_cst_0 : FVec F S_ .f32 := constant S_ .f32 0x7F800000#32
  let main_v5 : FVec F S10x2 .f32 := broadcastInDim S10x2 ![] bcast_S_S10x2 main_cst_0
  let main_v6 : IVec S10x2 1 := cmpf .olt main_v4 main_v5
  let main_c_1 : IVec S_ 1 := constantI S_ 1 1#1
  let main_v7 : IVec S_ 1 := (fun x v => Host.reduce IntOp.andi x v reducesTo_S10x2_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_arg5 main_arg6 main_v13 main_v16
-- ==== Kernel.lean ====
abbrev S2x4194304 : Shape := ⟨2, ![2, 4194304]⟩
abbrev S10x2 : Shape := ⟨2, ![10, 2]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩
abbrev S16x2 : Shape := ⟨2, ![16, 2]⟩
abbrev S16x1 : Shape := ⟨2, ![16, 1]⟩
abbrev S2 : Shape := ⟨1, ![2]⟩
abbrev S16x16 : Shape := ⟨2, ![16, 16]⟩
abbrev S8x16 : Shape := ⟨2, ![8, 16]⟩
abbrev S1x4194304 : Shape := ⟨2, ![1, 4194304]⟩
abbrev S2x32768 : Shape := ⟨2, ![2, 32768]⟩
abbrev S1x32768 : Shape := ⟨2, ![1, 32768]⟩
abbrev S16x32768 : Shape := ⟨2, ![16, 32768]⟩
abbrev S8x32768 : Shape := ⟨2, ![8, 32768]⟩
abbrev S4194304 : Shape := ⟨1, ![4194304]⟩
abbrev S4194304x1 : Shape := ⟨2, ![4194304, 1]⟩

abbrev nBuf : Space → Nat
  | .hbm => 67
  | .vmem => 8
  | .smem => 0
  | _ => 0

abbrev bufTy : (tb : Table) → Fin (tcTables nBuf tb) → BufTy
  | .hbm, ⟨0, _⟩ => ⟨S2x4194304, .f32⟩
  | .hbm, ⟨1, _⟩ => ⟨S10x2, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S1x10, .f32⟩
  | .hbm, ⟨6, _⟩ => ⟨S1, .f32⟩
  | .hbm, ⟨7, _⟩ => ⟨S_, .f32⟩
  | .hbm, ⟨8, _⟩ => ⟨S16x2, .f32⟩
  | .hbm, ⟨9, _⟩ => ⟨S_, .i32⟩
  | .hbm, ⟨10, _⟩ => ⟨S1, .i32⟩
  | .hbm, ⟨11, _⟩ => ⟨S16x2, .f32⟩
  | .hbm, ⟨12, _⟩ => ⟨S_, .f32⟩
  | .hbm, ⟨13, _⟩ => ⟨S16x1, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S16x1, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S_, .f32⟩
  | .hbm, ⟨26, _⟩ => ⟨S16x1, .f32⟩
  | .hbm, ⟨27, _⟩ => ⟨S_, .f32⟩
  | .hbm, ⟨28, _⟩ => ⟨S16x16, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S16x16, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S16x16, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S_, .f32⟩
  | .hbm, ⟨47, _⟩ => ⟨S16x16, .f32⟩
  | .hbm, ⟨48, _⟩ => ⟨S_, .f32⟩
  | .hbm, ⟨49, _⟩ => ⟨S8x16, .f32⟩
  | .hbm, ⟨50, _⟩ => ⟨S10, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S8x16, .f32⟩
  | .hbm, ⟨57, _⟩ => ⟨S_, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S8x16, .f32⟩
  | .hbm, ⟨64, _⟩ => ⟨S1x4194304, .f32⟩
  | .hbm, ⟨65, _⟩ => ⟨S4194304, .f32⟩
  | .hbm, ⟨66, _⟩ => ⟨S4194304x1, .f32⟩
  | .local _ .vmem, ⟨0, _⟩ => ⟨S2x32768, .f32⟩
  | .local _ .vmem, ⟨1, _⟩ => ⟨S2x32768, .f32⟩
  | .local _ .vmem, ⟨2, _⟩ => ⟨S16x2, .f32⟩
  | .local _ .vmem, ⟨3, _⟩ => ⟨S16x1, .f32⟩
  | .local _ .vmem, ⟨4, _⟩ => ⟨S16x16, .f32⟩
  | .local _ .vmem, ⟨5, _⟩ => ⟨S8x16, .f32⟩
  | .local _ .vmem, ⟨6, _⟩ => ⟨S1x32768, .f32⟩
  | .local _ .vmem, ⟨7, _⟩ => ⟨S1x32768, .f32⟩
  | _, _ => ⟨S2x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_c_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_c_7 : Ref sig .tc := ⟨.hbm, 29, rfl⟩
abbrev main_v13 : Ref sig .tc := ⟨.hbm, 30, rfl⟩
abbrev main_c_8 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_9 : Ref sig .tc := ⟨.hbm, 35, rfl⟩
abbrev main_v17 : Ref sig .tc := ⟨.hbm, 36, rfl⟩
abbrev main_c_10 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_11 : Ref sig .tc := ⟨.hbm, 41, rfl⟩
abbrev main_v21 : Ref sig .tc := ⟨.hbm, 42, rfl⟩
abbrev main_c_12 : Ref sig .tc := ⟨.hbm, 43, rfl⟩
abbrev main_v22 : Ref sig .tc := ⟨.hbm, 44, rfl⟩
abbrev main_v23 : Ref sig .tc := ⟨.hbm, 45, rfl⟩
abbrev main_cst_13 : Ref sig .tc := ⟨.hbm, 46, rfl⟩
abbrev main_v24 : Ref sig .tc := ⟨.hbm, 47, rfl⟩
abbrev main_cst_14 : Ref sig .tc := ⟨.hbm, 48, rfl⟩
abbrev main_v25 : Ref sig .tc := ⟨.hbm, 49, rfl⟩
abbrev main_v26 : Ref sig .tc := ⟨.hbm, 50, rfl⟩
abbrev main_c_15 : Ref sig .tc := ⟨.hbm, 51, rfl⟩
abbrev main_v27 : Ref sig .tc := ⟨.hbm, 52, rfl⟩
abbrev main_c_16 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_17 : Ref sig .tc := ⟨.hbm, 58, rfl⟩
abbrev main_v32 : Ref sig .tc := ⟨.hbm, 59, rfl⟩
abbrev main_c_18 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16x2 : S_.BroadcastsInDim S16x2 (![] : Fin 0 → Fin S16x2.rank)
  bcast_S_S1 : S_.BroadcastsInDim S1 (![] : Fin 0 → Fin S1.rank)
  bcast_S_S16x1 : S_.BroadcastsInDim S16x1 (![] : Fin 0 → Fin S16x1.rank)
  concatenates_S1_S1_S2_d0 : Shape.Concatenates [S1, S1] S2 0
  bcast_S_S16x16 : S_.BroadcastsInDim S16x16 (![] : Fin 0 → Fin S16x16.rank)
  bcast_S_S8x16 : S_.BroadcastsInDim S8x16 (![] : Fin 0 → Fin S8x16.rank)
  shapeCasts_S1x10_S10 : S1x10.ShapeCasts S10
  shapeCasts_S1_S_ : S1.ShapeCasts S_
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S2x32768_S2x32768_0_0 : ∀ a, (![0, 0] : Fin 2 → Nat) a + S2x32768.size a ≤ S2x32768.size a
  h_S2x32768 : 0 < S2x32768.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x32768 : S16x1.Broadcasts S16x32768
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S8x16_S8x16_0_0 : ∀ a, (![0, 0] : Fin 2 → Nat) a + S8x16.size a ≤ S8x16.size a
  h_S8x16 : 0 < S8x16.numel
  shapeCasts_S8x16_S8x16 : S8x16.ShapeCasts S8x16
  slices_S8x32768_o0_0_S1x32768 : S8x32768.Slices ![0, 0] S1x32768
  inb_S1x32768_S1x32768_0_0 : ∀ a, (![0, 0] : Fin 2 → Nat) a + S1x32768.size a ≤ S1x32768.size a
  h_S1x32768 : 0 < S1x32768.numel
  shapeCasts_S1x4194304_S4194304 : S1x4194304.ShapeCasts S4194304
  shapeCasts_S4194304_S4194304x1 : S4194304.ShapeCasts S4194304x1
  scatter_S16x2_S1_S10x2_01_n_0_0_wf : ScatterDims.WF S16x2 S1 S10x2 [0, 1] [] [0] 0
  scatter_S16x1_S2_S10_0_1_01_0_wf : ScatterDims.WF S16x1 S2 S10 [0] [1] [0, 1] 0
  scatter_S16x1_S2_S__n_01_01_0_wf : ScatterDims.WF S16x1 S2 S_ [] [0, 1] [0, 1] 0
  scatter_S16x16_S2_S10x10_01_n_01_0_wf : ScatterDims.WF S16x16 S2 S10x10 [0, 1] [] [0, 1] 0
  scatter_S16x16_S2_S10_0_1_01_0_wf : ScatterDims.WF S16x16 S2 S10 [0] [1] [0, 1] 0
  scatter_S16x16_S2_S__n_01_01_0_wf : ScatterDims.WF S16x16 S2 S_ [] [0, 1] [0, 1] 0
  scatter_S8x16_S2_S10_0_0_01_0_wf : ScatterDims.WF S8x16 S2 S10 [0] [0] [0, 1] 0
  scatter_S8x16_S2_S__n_01_01_0_wf : ScatterDims.WF S8x16 S2 S_ [] [0, 1] [0, 1] 0
  dot_S16x2_S2x32768_S16x32768_1_0_0_1_n_n_wf : DotDims.WF S16x2 S2x32768 S16x32768 [1] [0] [0] [1] [] []
  dot_S16x16_S16x32768_S16x32768_1_0_0_1_n_n_wf : DotDims.WF S16x16 S16x32768 S16x32768 [1] [0] [0] [1] [] []
  dot_S8x16_S16x32768_S8x32768_1_0_0_1_n_n_wf : DotDims.WF S8x16 S16x32768 S8x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768.size a ≤ S2x4194304.size a
  hwx0_0 : ∀ i : grid0.Coords, EltTy.bits .f32 = 32 ∨ (Rect.block (s := S2x4194304) S2x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S16x2.size a
  hwx0_1 : ∀ i : grid0.Coords, EltTy.bits .f32 = 32 ∨ (Rect.block (s := S16x2) S16x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S8x16.size a
  hwx0_4 : ∀ i : grid0.Coords, EltTy.bits .f32 = 32 ∨ (Rect.block (s := S8x16) S8x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32768.size a ≤ S1x4194304.size a
  hwx0_5 : ∀ i : grid0.Coords, EltTy.bits .f32 = 32 ∨ (Rect.block (s := S1x4194304) S1x32768.size (cc0_transform_5 i) (hinb0_5 i)).WholeWords (EltTy.packing .f32)

variable [Facts₀]

def scatter_S16x2_S1_S10x2_01_n_0_0 : ScatterDims S16x2 S1 S10x2 where
  updateWindowDims := [0, 1]
  insertedWindowDims := []
  scatterDimsToOperandDims := [0]
  indexVectorDim := 0
  wf := scatter_S16x2_S1_S10x2_01_n_0_0_wf
def scatter_S16x1_S2_S10_0_1_01_0 : ScatterDims S16x1 S2 S10 where
  updateWindowDims := [0]
  insertedWindowDims := [1]
  scatterDimsToOperandDims := [0, 1]
  indexVectorDim := 0
  wf := scatter_S16x1_S2_S10_0_1_01_0_wf
def scatter_S16x1_S2_S__n_01_01_0 : ScatterDims S16x1 S2 S_ where
  updateWindowDims := []
  insertedWindowDims := [0, 1]
  scatterDimsToOperandDims := [0, 1]
  indexVectorDim := 0
  wf := scatter_S16x1_S2_S__n_01_01_0_wf
def scatter_S16x16_S2_S10x10_01_n_01_0 : ScatterDims S16x16 S2 S10x10 where
  updateWindowDims := [0, 1]
  insertedWindowDims := []
  scatterDimsToOperandDims := [0, 1]
  indexVectorDim := 0
  wf := scatter_S16x16_S2_S10x10_01_n_01_0_wf
def scatter_S16x16_S2_S10_0_1_01_0 : ScatterDims S16x16 S2 S10 where
  updateWindowDims := [0]
  insertedWindowDims := [1]
  scatterDimsToOperandDims := [0, 1]
  indexVectorDim := 0
  wf := scatter_S16x16_S2_S10_0_1_01_0_wf
def scatter_S16x16_S2_S__n_01_01_0 : ScatterDims S16x16 S2 S_ where
  updateWindowDims := []
  insertedWindowDims := [0, 1]
  scatterDimsToOperandDims := [0, 1]
  indexVectorDim := 0
  wf := scatter_S16x16_S2_S__n_01_01_0_wf
def scatter_S8x16_S2_S10_0_0_01_0 : ScatterDims S8x16 S2 S10 where
  updateWindowDims := [0]
  insertedWindowDims := [0]
  scatterDimsToOperandDims := [0, 1]
  indexVectorDim := 0
  wf := scatter_S8x16_S2_S10_0_0_01_0_wf
def scatter_S8x16_S2_S__n_01_01_0 : ScatterDims S8x16 S2 S_ where
  updateWindowDims := []
  insertedWindowDims := [0, 1]
  scatterDimsToOperandDims := [0, 1]
  indexVectorDim := 0
  wf := scatter_S8x16_S2_S__n_01_01_0_wf
def dot_S16x2_S2x32768_S16x32768_1_0_0_1_n_n : DotDims S16x2 S2x32768 S16x32768 where
  lhsContracting := [1]
  rhsContracting := [0]
  lhsNonContracting := [0]
  rhsNonContracting := [1]
  lhsBatch := []
  rhsBatch := []
  wf := dot_S16x2_S2x32768_S16x32768_1_0_0_1_n_n_wf
def dot_S16x16_S16x32768_S16x32768_1_0_0_1_n_n : DotDims S16x16 S16x32768 S16x32768 where
  lhsContracting := [1]
  rhsContracting := [0]
  lhsNonContracting := [0]
  rhsNonContracting := [1]
  lhsBatch := []
  rhsBatch := []
  wf := dot_S16x16_S16x32768_S16x32768_1_0_0_1_n_n_wf
def dot_S8x16_S16x32768_S8x32768_1_0_0_1_n_n : DotDims S8x16 S16x32768 S8x32768 where
  lhsContracting := [1]
  rhsContracting := [0]
  lhsNonContracting := [0]
  rhsNonContracting := [1]
  lhsBatch := []
  rhsBatch := []
  wf := dot_S8x16_S16x32768_S8x32768_1_0_0_1_n_n_wf

abbrev win0_0 : Pipeline.Window sig grid0 :=
  Pipeline.Window.ofSpec (Memref.whole main_arg0) S2x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S8x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4194304 : Shape := ⟨2, ![2, 4194304]⟩
abbrev S10x2 : Shape := ⟨2, ![10, 2]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩
abbrev S10x3 : Shape := ⟨2, ![10, 3]⟩
abbrev S2 : Shape := ⟨1, ![2]⟩
abbrev S1x4194304 : Shape := ⟨2, ![1, 4194304]⟩
abbrev S2x32768 : Shape := ⟨2, ![2, 32768]⟩
abbrev S1x32768 : Shape := ⟨2, ![1, 32768]⟩
abbrev S10x1 : Shape := ⟨2, ![10, 1]⟩
abbrev S1x1 : Shape := ⟨2, ![1, 1]⟩
abbrev S10x32768 : Shape := ⟨2, ![10, 32768]⟩
abbrev S4194304 : Shape := ⟨1, ![4194304]⟩
abbrev S4194304x1 : Shape := ⟨2, ![4194304, 1]⟩

abbrev nBuf : Space → Nat
  | .hbm => 25
  | .vmem => 8
  | .smem => 0
  | _ => 0

abbrev bufTy : (tb : Table) → Fin (tcTables nBuf tb) → BufTy
  | .hbm, ⟨0, _⟩ => ⟨S2x4194304, .f32⟩
  | .hbm, ⟨1, _⟩ => ⟨S10x2, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S1x10, .f32⟩
  | .hbm, ⟨6, _⟩ => ⟨S1, .f32⟩
  | .hbm, ⟨7, _⟩ => ⟨S_, .f32⟩
  | .hbm, ⟨8, _⟩ => ⟨S10x3, .f32⟩
  | .hbm, ⟨9, _⟩ => ⟨S_, .i32⟩
  | .hbm, ⟨10, _⟩ => ⟨S1, .i32⟩
  | .hbm, ⟨11, _⟩ => ⟨S10x3, .f32⟩
  | .hbm, ⟨12, _⟩ => ⟨S_, .i32⟩
  | .hbm, ⟨13, _⟩ => ⟨S1, .i32⟩
  | .hbm, ⟨14, _⟩ => ⟨S10x3, .f32⟩
  | .hbm, ⟨15, _⟩ => ⟨S_, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S10x3, .f32⟩
  | .hbm, ⟨22, _⟩ => ⟨S1x4194304, .f32⟩
  | .hbm, ⟨23, _⟩ => ⟨S4194304, .f32⟩
  | .hbm, ⟨24, _⟩ => ⟨S4194304x1, .f32⟩
  | .local _ .vmem, ⟨0, _⟩ => ⟨S2x32768, .f32⟩
  | .local _ .vmem, ⟨1, _⟩ => ⟨S2x32768, .f32⟩
  | .local _ .vmem, ⟨2, _⟩ => ⟨S10x2, .f32⟩
  | .local _ .vmem, ⟨3, _⟩ => ⟨S10x10, .f32⟩
  | .local _ .vmem, ⟨4, _⟩ => ⟨S1x10, .f32⟩
  | .local _ .vmem, ⟨5, _⟩ => ⟨S10x3, .f32⟩
  | .local _ .vmem, ⟨6, _⟩ => ⟨S1x32768, .f32⟩
  | .local _ .vmem, ⟨7, _⟩ => ⟨S1x32768, .f32⟩
  | _, _ => ⟨S2x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S10x3 : S_.BroadcastsInDim S10x3 (![] : Fin 0 → Fin S10x3.rank)
  bcast_S_S1 : S_.BroadcastsInDim S1 (![] : Fin 0 → Fin S1.rank)
  shapeCasts_S1_S_ : S1.ShapeCasts S_
  concatenates_S1_S1_S2_d0 : Shape.Concatenates [S1, S1] S2 0
  inb_S2x32768_S2x32768_0_0 : ∀ a, (![0, 0] : Fin 2 → Nat) a + S2x32768.size a ≤ S2x32768.size a
  h_S2x32768 : 0 < S2x32768.numel
  inb_S10x3_S10x1_0_0 : ∀ a, (![0, 0] : Fin 2 → Nat) a + S10x1.size a ≤ S10x3.size a
  h_S10x1 : 0 < S10x1.numel
  shapeCasts_S10x1_S10x1 : S10x1.ShapeCasts S10x1
  inb_S10x3_S10x1_0_1 : ∀ a, (![0, 1] : Fin 2 → Nat) a + S10x1.size a ≤ S10x3.size a
  inb_S10x3_S1x1_0_2 : ∀ a, (![0, 2] : Fin 2 → Nat) a + S1x1.size a ≤ S10x3.size a
  h_S1x1 : 0 < S1x1.numel
  shapeCasts_S1x1_S1x1 : S1x1.ShapeCasts S1x1
  inb_S10x2_S10x2_0_0 : ∀ a, (![0, 0] : Fin 2 → Nat) a + S10x2.size a ≤ S10x2.size a
  h_S10x2 : 0 < S10x2.numel
  broadcasts_S10x1_S10x32768 : S10x1.Broadcasts S10x32768
  inb_S10x10_S10x10_0_0 : ∀ a, (![0, 0] : Fin 2 → Nat) a + S10x10.size a ≤ S10x10.size a
  h_S10x10 : 0 < S10x10.numel
  inb_S1x10_S1x10_0_0 : ∀ a, (![0, 0] : Fin 2 → Nat) a + S1x10.size a ≤ S1x10.size a
  h_S1x10 : 0 < S1x10.numel
  broadcasts_S1x1_S1x32768 : S1x1.Broadcasts S1x32768
  inb_S1x32768_S1x32768_0_0 : ∀ a, (![0, 0] : Fin 2 → Nat) a + S1x32768.size a ≤ S1x32768.size a
  h_S1x32768 : 0 < S1x32768.numel
  shapeCasts_S1x4194304_S4194304 : S1x4194304.ShapeCasts S4194304
  shapeCasts_S4194304_S4194304x1 : S4194304.ShapeCasts S4194304x1
  scatter_S10x3_S1_S10_0_1_1_0_wf : ScatterDims.WF S10x3 S1 S10 [0] [1] [1] 0
  scatter_S10x3_S2_S__n_01_01_0_wf : ScatterDims.WF S10x3 S2 S_ [] [0, 1] [0, 1] 0
  dot_S10x2_S2x32768_S10x32768_1_0_0_1_n_n_wf : DotDims.WF S10x2 S2x32768 S10x32768 [1] [0] [0] [1] [] []
  dot_S10x10_S10x32768_S10x32768_1_0_0_1_n_n_wf : DotDims.WF S10x10 S10x32768 S10x32768 [1] [0] [0] [1] [] []
  dot_S1x10_S10x32768_S1x32768_1_0_0_1_n_n_wf : DotDims.WF S1x10 S10x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768.size a ≤ S2x4194304.size a
  hwx0_0 : ∀ i : grid0.Coords, EltTy.bits .f32 = 32 ∨ (Rect.block (s := S2x4194304) S2x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x2.size a ≤ S10x2.size a
  hwx0_1 : ∀ i : grid0.Coords, EltTy.bits .f32 = 32 ∨ (Rect.block (s := S10x2) S10x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x3.size a ≤ S10x3.size a
  hwx0_4 : ∀ i : grid0.Coords, EltTy.bits .f32 = 32 ∨ (Rect.block (s := S10x3) S10x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32768.size a ≤ S1x4194304.size a
  hwx0_5 : ∀ i : grid0.Coords, EltTy.bits .f32 = 32 ∨ (Rect.block (s := S1x4194304) S1x32768.size (cc0_transform_5 i) (hinb0_5 i)).WholeWords (EltTy.packing .f32)

variable [Facts₀]

def scatter_S10x3_S1_S10_0_1_1_0 : ScatterDims S10x3 S1 S10 where
  updateWindowDims := [0]
  insertedWindowDims := [1]
  scatterDimsToOperandDims := [1]
  indexVectorDim := 0
  wf := scatter_S10x3_S1_S10_0_1_1_0_wf
def scatter_S10x3_S2_S__n_01_01_0 : ScatterDims S10x3 S2 S_ where
  updateWindowDims := []
  insertedWindowDims := [0, 1]
  scatterDimsToOperandDims := [0, 1]
  indexVectorDim := 0
  wf := scatter_S10x3_S2_S__n_01_01_0_wf
def dot_S10x2_S2x32768_S10x32768_1_0_0_1_n_n : DotDims S10x2 S2x32768 S10x32768 where
  lhsContracting := [1]
  rhsContracting := [0]
  lhsNonContracting := [0]
  rhsNonContracting := [1]
  lhsBatch := []
  rhsBatch := []
  wf := dot_S10x2_S2x32768_S10x32768_1_0_0_1_n_n_wf
def dot_S10x10_S10x32768_S10x32768_1_0_0_1_n_n : DotDims S10x10 S10x32768 S10x32768 where
  lhsContracting := [1]
  rhsContracting := [0]
  lhsNonContracting := [0]
  rhsNonContracting := [1]
  lhsBatch := []
  rhsBatch := []
  wf := dot_S10x10_S10x32768_S10x32768_1_0_0_1_n_n_wf
def dot_S1x10_S10x32768_S1x32768_1_0_0_1_n_n : DotDims S1x10 S10x32768 S1x32768 where
  lhsContracting := [1]
  rhsContracting := [0]
  lhsNonContracting := [0]
  rhsNonContracting := [1]
  lhsBatch := []
  rhsBatch := []
  wf := dot_S1x10_S10x32768_S1x32768_1_0_0_1_n_n_wf

abbrev win0_0 : Pipeline.Window sig grid0 :=
  Pipeline.Window.ofSpec (Memref.whole main_arg0) S2x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The mathematics both programs compute, stated once over plain finite index types.

  A 2 → 10 → 10 → 1 perceptron applied to one column `x : Fin 2 → EReal` of the input:
    h1 l = max (Σ i, w1 l i · x i + b1 l) 0,   h2 k = max (Σ l, w2 k l · h1 l + b2 k) 0,   out = Σ k, w3 k · h2 k + b3.
  The kernel computes the same number through AUGMENTED weights of sixteen rows: the biases of the second and
  third layer ride in column ten of the next layer's matrix, multiplied by a hidden unit that is constantly one
  (row ten of the first bias vector is one, row ten of the second matrix has a one in column ten), and the rows
  beyond are zero. On the extended reals `0 · a = 0` and `a · 1 = a` hold for every `a`, sums may be regrouped
  freely, and `max 1 0 = 1`: the two forms agree with no assumption on the inputs.
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx

/-! ## The perceptron in the reference's form -/

/-- First hidden layer at unit `l`. -/
def hid1 (w1 : Fin 10 → Fin 2 → EReal) (b1 : Fin 10 → EReal) (x : Fin 2 → EReal) (l : Fin 10) : EReal :=
  max ((∑ i : Fin 2, w1 l i * x i) + b1 l) 0

/-- Second hidden layer at unit `k`. -/
def hid2 (w2 : Fin 10 → Fin 10 → EReal) (b2 : Fin 10 → EReal) (h1 : Fin 10 → EReal) (k : Fin 10) : EReal :=
  max ((∑ l : Fin 10, w2 k l * h1 l) + b2 k) 0

/-- The output unit. -/
def outp (w3 : Fin 10 → EReal) (b3 : EReal) (h2 : Fin 10 → EReal) : EReal :=
  (∑ k : Fin 10, w3 k * h2 k) + b3

/-- The whole perceptron on one column. -/
def mlp (w1 : Fin 10 → Fin 2 → EReal) (b1 : Fin 10 → EReal) (w2 : Fin 10 → Fin 10 → EReal) (b2 : Fin 10 → EReal)
    (w3 : Fin 10 → EReal) (b3 : EReal) (x : Fin 2 → EReal) : EReal :=
  outp w3 b3 (hid2 w2 b2 (hid1 w1 b1 x))

/-! ## The same through sixteen-row augmented weights -/

/-- First layer over sixteen rows, with its bias column. -/
def aug1 (W1 : Fin 16 → Fin 2 → EReal) (bv : Fin 16 → EReal) (x : Fin 2 → EReal) (r : Fin 16) : EReal :=
  max ((∑ i : Fin 2, W1 r i * x i) + bv r) 0

/-- Second layer over sixteen rows, no separate bias. -/
def aug2 (W2 : Fin 16 → Fin 16 → EReal) (h1 : Fin 16 → EReal) (r : Fin 16) : EReal :=
  max (∑ l : Fin 16, W2 r l * h1 l) 0

/-- Output row, no separate bias. -/
def aug3 (W3 : Fin 16 → EReal) (h2 : Fin 16 → EReal) : EReal :=
  ∑ k : Fin 16, W3 k * h2 k

/-- The augmented perceptron on one column. -/
def mlpAug (W1 : Fin 16 → Fin 2 → EReal) (bv : Fin 16 → EReal) (W2 : Fin 16 → Fin 16 → EReal) (W3 : Fin 16 → EReal)
    (x : Fin 2 → EReal) : EReal :=
  aug3 W3 (aug2 W2 (aug1 W1 bv x))

/-! ## The augmented weights as functions of the plain ones -/

/-- Rows 0–9 are `w1`, the rest zero. -/
def W1a (w1 : Fin 10 → Fin 2 → EReal) (r : Fin 16) (i : Fin 2) : EReal :=
  if h : r.val < 10 then w1 ⟨r.val, h⟩ i else 0

/-- Rows 0–9 are `b1`, row 10 is one, the rest zero. -/
def bv1 (b1 : Fin 10 → EReal) (r : Fin 16) : EReal :=
  if h : r.val < 10 then b1 ⟨r.val, h⟩ else if r.val = 10 then 1 else 0

/-- The 10 × 10 corner is `w2`, column 10 of rows 0–9 is `b2`, entry (10, 10) is one, the rest zero. -/
def W2a (w2 : Fin 10 → Fin 10 → EReal) (b2 : Fin 10 → EReal) (r l : Fin 16) : EReal :=
  if hr : r.val < 10 then
    (if hl : l.val < 10 then w2 ⟨r.val, hr⟩ ⟨l.val, hl⟩ else if l.val = 10 then b2 ⟨r.val, hr⟩ else 0)
  else if r.val = 10 ∧ l.val = 10 then 1 else 0

/-- Row 0 of the third matrix: columns 0–9 are `w3`, column 10 is `b3`, the rest zero. -/
def W3a (w3 : Fin 10 → EReal) (b3 : EReal) (k : Fin 16) : EReal :=
  if h : k.val < 10 then w3 ⟨k.val, h⟩ else if k.val = 10 then b3 else 0

/-- A weighted sum over sixteen rows whose weights are `w` on rows 0–9, `b` on row 10 and zero beyond
    is the ten-term sum plus `b` times the value on row 10. -/
theorem sum16_split (W h : Fin 16 → EReal) (w : Fin 10 → EReal) (b : EReal)
    (hw : ∀ k : Fin 10, W ⟨k.val, by omega⟩ = w k) (hb : W ⟨10, by omega⟩ = b)
    (hz : ∀ k : Fin 16, 10 < k.val → W k = 0) :
    ∑ k : Fin 16, W k * h k = (∑ k : Fin 10, w k * h ⟨k.val, by omega⟩) + b * h ⟨10, by omega⟩ := by
  have e := Fin.sum_univ_add (a := 10) (b := 6) (fun k : Fin (10 + 6) => W k * h k)
  have e' : (∑ k : Fin 16, W k * h k) = ∑ k : Fin (10 + 6), W k * h k := rfl
  rw [e', e, Fin.sum_univ_succ (n := 5)]
  have h1 : (∑ i : Fin 10, W (Fin.castAdd 6 i) * h (Fin.castAdd 6 i)) = ∑ k : Fin 10, w k * h ⟨k.val, by omega⟩ :=
    Finset.sum_congr rfl fun k _ => by rw [show W (Fin.castAdd 6 k) = w k from hw k]; rfl
  have h2 : W (Fin.natAdd 10 (0 : Fin 6)) * h (Fin.natAdd 10 (0 : Fin 6)) = b * h ⟨10, by omega⟩ := by
    rw [show W (Fin.natAdd 10 (0 : Fin 6)) = b from hb]; rfl
  have h3 : (∑ i : Fin 5, W (Fin.natAdd 10 i.succ) * h (Fin.natAdd 10 i.succ)) = 0 :=
    Finset.sum_eq_zero fun i _ => by
      rw [hz (Fin.natAdd 10 i.succ) (by simp [Fin.natAdd]), zero_mul]
  rw [h1, h2, h3, add_zero]

/-- THE LAW: through the augmented weights the perceptron is unchanged. -/
theorem mlpAug_eq (w1 : Fin 10 → Fin 2 → EReal) (b1 : Fin 10 → EReal) (w2 : Fin 10 → Fin 10 → EReal) (b2 : Fin 10 → EReal)
    (w3 : Fin 10 → EReal) (b3 : EReal) (x : Fin 2 → EReal) :
    mlpAug (W1a w1) (bv1 b1) (W2a w2 b2) (W3a w3 b3) x = mlp w1 b1 w2 b2 w3 b3 x := by
  have hmax : max (1 : EReal) 0 = 1 := max_eq_left zero_le_one
  -- the first layer: rows 0–9 are the plain hidden units, row 10 is the constant one
  have A : ∀ l : Fin 10, aug1 (W1a w1) (bv1 b1) x ⟨l.val, by omega⟩ = hid1 w1 b1 x l := by
    intro l
    simp only [aug1, hid1, W1a, bv1, l.isLt, ↓reduceDIte, Fin.eta]
  have B : aug1 (W1a w1) (bv1 b1) x ⟨10, by omega⟩ = 1 := by
    simp only [aug1, W1a, bv1, Nat.lt_irrefl, ↓reduceDIte, ↓reduceIte, zero_mul, Finset.sum_const_zero, zero_add, hmax]
  -- the second layer
  have C : ∀ k : Fin 10, aug2 (W2a w2 b2) (aug1 (W1a w1) (bv1 b1) x) ⟨k.val, by omega⟩ = hid2 w2 b2 (hid1 w1 b1 x) k := by
    intro k
    unfold aug2 hid2
    rw [sum16_split (fun l => W2a w2 b2 ⟨k.val, by omega⟩ l) (aug1 (W1a w1) (bv1 b1) x) (w2 k) (b2 k)
      (fun l => by simp only [W2a, k.isLt, l.isLt, ↓reduceDIte, Fin.eta])
      (by simp only [W2a, k.isLt, Nat.lt_irrefl, ↓reduceDIte, ↓reduceIte])
      (fun l hl => by
        simp only [W2a, k.isLt, ↓reduceDIte]
        rw [dif_neg (by omega), if_neg (by omega)])]
    simp only [A, B, mul_one]
  have D : aug2 (W2a w2 b2) (aug1 (W1a w1) (bv1 b1) x) ⟨10, by omega⟩ = 1 := by
    unfold aug2
    rw [sum16_split (fun l => W2a w2 b2 ⟨10, by omega⟩ l) (aug1 (W1a w1) (bv1 b1) x) (fun _ => 0) 1
      (fun l => by
        simp only [W2a, Nat.lt_irrefl, ↓reduceDIte]
        rw [if_neg (by have := l.isLt; omega)])
      (by simp only [W2a, Nat.lt_irrefl, ↓reduceDIte, and_self, ↓reduceIte])
      (fun l hl => by
        simp only [W2a, Nat.lt_irrefl, ↓reduceDIte]
        rw [if_neg (by omega)])]
    simp only [zero_mul, Finset.sum_const_zero, zero_add, B, mul_one, hmax]
  -- the output row
  unfold mlpAug mlp aug3 outp
  rw [sum16_split (W3a w3 b3) (aug2 (W2a w2 b2) (aug1 (W1a w1) (bv1 b1) x)) w3 b3
    (fun k => by simp only [W3a, k.isLt, ↓reduceDIte, Fin.eta])
    (by simp only [W3a, Nat.lt_irrefl, ↓reduceDIte, ↓reduceIte])
    (fun k hk => by
      simp only [W3a]
      rw [dif_neg (by omega), if_neg (by omega)])]
  simp only [C, D, mul_one]

/-! ## The result array -/

/-- The result as ONE function of the argument arrays: entry `(j, 0)` is the perceptron on column `j` of `x`. -/
def result (x : (⟨2, ![2, 4194304]⟩ : Shape).Idx → EReal) (w1 : (⟨2, ![10, 2]⟩ : Shape).Idx → EReal)
    (b1 : (⟨1, ![10]⟩ : Shape).Idx → EReal) (w2 : (⟨2, ![10, 10]⟩ : Shape).Idx → EReal) (b2 : (⟨1, ![10]⟩ : Shape).Idx → EReal)
    (w3 : (⟨2, ![1, 10]⟩ : Shape).Idx → EReal) (b3 : (⟨1, ![1]⟩ : Shape).Idx → EReal) :
    (⟨2, ![4194304, 1]⟩ : Shape).Idx → EReal :=
  fun i => mlp (fun l a => w1 (ix2 l a)) (fun l => b1 (ix1 l)) (fun k l => w2 (ix2 k l)) (fun k => b2 (ix1 k))
    (fun k => w3 (ix2 0 k)) (b3 (ix1 0)) (fun a => x (ix2 a (i 0)))

end Cert.Mlp

end
-- ==== Proof.LibScatterSet.lean ====
/-
  A host scatter whose body returns the update (an array `.at[…].set`) read at an index.

  `Host.scatter` is a left fold over the update indices in row-major order; each step overwrites the operand
  at that update's result index. When every update lands inside the operand, at `tgt j`, and no two updates
  land on one element (`tgt` injective), the fold's value at `tgt j` is update `j`, and at an index no update
  lands on it is the operand's.
-/
import Idealize.ShloMosaic.PureOps.ShapeOps

namespace Idealize.ShloMosaic.ScatterSet

open Idealize.ShloMosaic

variable {s si u : Shape} {w : Nat} {α : Type}

/-- One step of the fold: the update at row-major position `n` overwrites the element at its result index. -/
private def step (d : ScatterDims s si u) (idx : IVec si w) (upd : u.Idx → α) (r : s.Idx → α) (n : Fin u.numel) :
    s.Idx → α :=
  match d.resultIdx? (u.rowMajor.symm n) idx with
  | some i => fun i' => if i' = i then (fun (_ b : α) => b) (r i) (upd (u.rowMajor.symm n)) else r i'
  | none => r

private theorem scatter_eq_foldl (d : ScatterDims s si u) (x : s.Idx → α) (idx : IVec si w) (upd : u.Idx → α) :
    Host.scatter d (fun _ b => b) x idx upd = (List.finRange u.numel).foldl (step d idx upd) x := rfl

/-- When every update lands, a step writes update `n` at `tgt` of it and keeps every other element. -/
private theorem step_apply (d : ScatterDims s si u) (idx : IVec si w) (upd : u.Idx → α)
    (tgt : u.Idx → s.Idx) (htgt : ∀ j, d.resultIdx? j idx = some (tgt j)) (r : s.Idx → α) (n : Fin u.numel) (i : s.Idx) :
    step d idx upd r n i = if i = tgt (u.rowMajor.symm n) then upd (u.rowMajor.symm n) else r i := by
  unfold step
  rw [htgt]

/-- If no update of the list lands on `i`, the fold keeps the accumulator's element at `i`. -/
private theorem foldl_miss (d : ScatterDims s si u) (idx : IVec si w) (upd : u.Idx → α)
    (tgt : u.Idx → s.Idx) (htgt : ∀ j, d.resultIdx? j idx = some (tgt j)) (i : s.Idx) :
    ∀ (l : List (Fin u.numel)) (acc : s.Idx → α), (∀ n ∈ l, tgt (u.rowMajor.symm n) ≠ i) →
      l.foldl (step d idx upd) acc i = acc i := by
  intro l
  induction l with
  | nil => intro acc _; rfl
  | cons n l ih =>
    intro acc h
    rw [List.foldl_cons, ih _ (fun n' hn' => h n' (List.mem_cons_of_mem _ hn')), step_apply d idx upd tgt htgt]
    have hne : tgt (u.rowMajor.symm n) ≠ i := h n List.mem_cons_self
    rw [if_neg (fun e => hne e.symm)]

/-- If `n0` lands on `i`, every update of the list that lands on `i` is `n0`, and either `n0` is in the list
    or the accumulator already holds update `n0` at `i`, the fold holds update `n0` at `i`. -/
private theorem foldl_hit (d : ScatterDims s si u) (idx : IVec si w) (upd : u.Idx → α)
    (tgt : u.Idx → s.Idx) (htgt : ∀ j, d.resultIdx? j idx = some (tgt j)) (i : s.Idx) (n0 : Fin u.numel)
    (hn0 : tgt (u.rowMajor.symm n0) = i) :
    ∀ (l : List (Fin u.numel)) (acc : s.Idx → α), (∀ n ∈ l, tgt (u.rowMajor.symm n) = i → n = n0) →
      (n0 ∈ l ∨ acc i = upd (u.rowMajor.symm n0)) →
      l.foldl (step d idx upd) acc i = upd (u.rowMajor.symm n0) := by
  intro l
  induction l with
  | nil =>
    intro acc _ h
    rcases h with h | h
    · exact absurd h List.not_mem_nil
    · exact h
  | cons n l ih =>
    intro acc hall h
    rw [List.foldl_cons]
    apply ih _ (fun n' hn' => hall n' (List.mem_cons_of_mem _ hn'))
    by_cases hn : tgt (u.rowMajor.symm n) = i
    · right
      have hnn : n = n0 := hall n List.mem_cons_self hn
      rw [step_apply d idx upd tgt htgt, if_pos hn.symm, hnn]
    · rcases h with h | h
      · left
        rcases List.mem_cons.1 h with h | h
        · exact absurd (h ▸ hn0) hn
        · exact h
      · right
        rw [step_apply d idx upd tgt htgt, if_neg (fun e => hn e.symm)]
        exact h

/-- An index some update lands on holds that update. -/
theorem scatter_set_hit (d : ScatterDims s si u) (x : s.Idx → α) (idx : IVec si w) (upd : u.Idx → α)
    (tgt : u.Idx → s.Idx) (htgt : ∀ j, d.resultIdx? j idx = some (tgt j)) (hinj : Function.Injective tgt) (j : u.Idx) :
    Host.scatter d (fun _ b => b) x idx upd (tgt j) = upd j := by
  rw [scatter_eq_foldl]
  have hj : u.rowMajor.symm (u.rowMajor j) = j := u.rowMajor.symm_apply_apply j
  have := foldl_hit d idx upd tgt htgt (tgt j) (u.rowMajor j) (by rw [hj]) (List.finRange u.numel) x
    (fun n _ hn => by
      have := hinj hn
      rw [← this, Equiv.apply_symm_apply])
    (Or.inl (List.mem_finRange _))
  rw [this, hj]

/-- An index no update lands on keeps the operand's element. -/
theorem scatter_set_miss (d : ScatterDims s si u) (x : s.Idx → α) (idx : IVec si w) (upd : u.Idx → α)
    (tgt : u.Idx → s.Idx) (htgt : ∀ j, d.resultIdx? j idx = some (tgt j)) (i : s.Idx) (hmiss : ∀ j, tgt j ≠ i) :
    Host.scatter d (fun _ b => b) x idx upd i = x i := by
  rw [scatter_eq_foldl]
  exact foldl_miss d idx upd tgt htgt i (List.finRange u.numel) x (fun n _ => hmiss _)

end Idealize.ShloMosaic.ScatterSet
-- ==== Proof.KHost.lean ====
/-
  The arrays the kernel's pallas_call is launched on, read at an index: each is a zero array into which the host
  wrote a weight matrix, a bias vector or the constant one at a literal offset. Together they are the augmented
  weights of the specification.
-/
import proofs.«154862_g2000409670772848_pallaspilot1_20_3_alg».proof.Proof.Gen.KernelIdeal.Frame
import proofs.«154862_g2000409670772848_pallaspilot1_20_3_alg».proof.Proof.Spec
import proofs.«154862_g2000409670772848_pallaspilot1_20_3_alg».proof.Proof.LibScatterSet
import Idealize.ShloMosaic.Lib.IdealHost
import Idealize.ShloMosaic.Lib.ValueLayout

noncomputable section

namespace Cert.KernelIdeal.HostVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## A scatter that overwrites, read at an index

Every scatter of the host program returns the update (an `.at[…].set`) at ONE literal start index, so each
update lands at its own coordinates shifted by that start. The landing index is computed axis by axis; the two
general facts about an overwriting scatter (an index an update lands on holds that update, any other keeps the
operand) then read the result as `if inside the window then update else operand`. -/

/-- An update lands at `t` when on every axis the window's start plus the window coordinate is `t`'s coordinate. -/
private theorem resultIdx?_eq_some {s si u : Shape} {w : Nat} (d : ScatterDims s si u) (j : u.Idx) (idx : IVec si w) (t : s.Idx)
    (h : ∀ a, d.start j idx a + d.window j a = ((t a).val : Int)) : d.resultIdx? j idx = some t := by
  unfold ScatterDims.resultIdx?
  have hall : ∀ a, 0 ≤ d.start j idx a + d.window j a ∧ d.start j idx a + d.window j a < s.size a := by
    intro a; rw [h a]; exact ⟨Int.natCast_nonneg _, by exact_mod_cast (t a).isLt⟩
  rw [dif_pos hall]
  congr 1; funext a; apply Fin.ext
  show (d.start j idx a + d.window j a).toNat = (t a).val
  rw [h a]; rfl

/-- The start index `(a, b)` as a function of its one coordinate. -/
private abbrev idx2 (a b : BitVec 32) : IVec S2 32 := fun k => (![a, b] : Fin 2 → BitVec 32) (k 0)

/-- Two one-element integer constants concatenated are the start index `(a, b)`. -/
private theorem concat_idx (a b : BitVec 32) :
    (concatenate S2 0 [⟨S1, (broadcastInDim S1 ![] bcast_S_S1 (constantI S_ 32 a) : IVec S1 32)⟩,
        ⟨S1, (broadcastInDim S1 ![] bcast_S_S1 (constantI S_ 32 b) : IVec S1 32)⟩] concatenates_S1_S1_S2_d0 : IVec S2 32)
      = idx2 a b := by
  funext k
  obtain ⟨k0, rfl⟩ : ∃ k0 : Fin 2, k = ix1 k0 := ⟨k 0, eq_ix1 k⟩
  match k0 with
  | ⟨0, _⟩ => rfl
  | ⟨1, _⟩ => rfl

/-! ### A 10 × 2 window at (0, 0) of a 16 × 2 array -/

private abbrev tgt1 (j : S10x2.Idx) : S16x2.Idx :=
  ix2 (⟨(j 0).val, Nat.lt_of_lt_of_le (idx2_lt0 j) (by decide)⟩ : Fin 16) (⟨(j 1).val, idx2_lt1 j⟩ : Fin 2)

private theorem scat1_apply (x : S16x2.Idx → EReal) (u : S10x2.Idx → EReal) (r : Fin 16) (i : Fin 2) :
    Host.scatter scatter_S16x2_S1_S10x2_01_n_0_0 (fun _ b => b) x (fun _ => 0#32 : IVec S1 32) u (ix2 r i)
      = if h : r.val < 10 then u (ix2 (⟨r.val, h⟩ : Fin 10) i) else x (ix2 r i) := by
  have htgt : ∀ j, scatter_S16x2_S1_S10x2_01_n_0_0.resultIdx? j (fun _ => 0#32 : IVec S1 32) = some (tgt1 j) :=
    fun j => resultIdx?_eq_some _ j _ _ (fun a => match a with
      | ⟨0, _⟩ => by show (0 : Int) + ((j 0).val : Int) = ((j 0).val : Int); omega
      | ⟨1, _⟩ => by show (0 : Int) + ((j 1).val : Int) = ((j 1).val : Int); omega)
  by_cases h : r.val < 10
  · rw [dif_pos h]
    have hinj : Function.Injective tgt1 := fun j j' e => funext fun a => match a with
      | ⟨0, _⟩ => Fin.ext (show (j 0).val = (j' 0).val from congrArg (fun t : S16x2.Idx => (t 0).val) e)
      | ⟨1, _⟩ => Fin.ext (show (j 1).val = (j' 1).val from congrArg (fun t : S16x2.Idx => (t 1).val) e)
    exact ScatterSet.scatter_set_hit _ x _ u tgt1 htgt hinj (ix2 (⟨r.val, h⟩ : Fin 10) i)
  · rw [dif_neg h]
    refine ScatterSet.scatter_set_miss _ x _ u tgt1 htgt (ix2 r i) (fun j e => h ?_)
    have e0 : (j 0).val = r.val := congrArg (fun t : S16x2.Idx => (t 0).val) e
    have := idx2_lt0 j
    omega

/-! ### A column of ten at (0, 0) of a 16 × 1 array, then one element at (10, 0) -/

private abbrev tgt2 (j : S10.Idx) : S16x1.Idx :=
  ix2 (⟨(j 0).val, Nat.lt_of_lt_of_le (j 0).isLt (by decide)⟩ : Fin 16) (⟨0, by decide⟩ : Fin 1)

private theorem scat2_apply (x : S16x1.Idx → EReal) (u : S10.Idx → EReal) (r : Fin 16) (l : Fin 1) :
    Host.scatter scatter_S16x1_S2_S10_0_1_01_0 (fun _ b => b) x (idx2 0#32 0#32) u (ix2 r l)
      = if h : r.val < 10 then u (ix1 (⟨r.val, h⟩ : Fin 10)) else x (ix2 r l) := by
  have htgt : ∀ j, scatter_S16x1_S2_S10_0_1_01_0.resultIdx? j (idx2 0#32 0#32) = some (tgt2 j) :=
    fun j => resultIdx?_eq_some _ j _ _ (fun a => match a with
      | ⟨0, _⟩ => by show (0 : Int) + ((j 0).val : Int) = ((j 0).val : Int); omega
      | ⟨1, _⟩ => by show (0 : Int) + ((0 : Nat) : Int) = ((0 : Nat) : Int); rfl)
  by_cases h : r.val < 10
  · rw [dif_pos h]
    have hinj : Function.Injective tgt2 := fun j j' e => funext fun a => match a with
      | ⟨0, _⟩ => Fin.ext (show (j 0).val = (j' 0).val from congrArg (fun t : S16x1.Idx => (t 0).val) e)
    have e : ix2 r l = tgt2 (ix1 (⟨r.val, h⟩ : Fin 10)) := by
      funext a; match a with
      | ⟨0, _⟩ => rfl
      | ⟨1, _⟩ => exact Fin.ext (show l.val = 0 by have := l.isLt; omega)
    rw [e]
    exact ScatterSet.scatter_set_hit _ x _ u tgt2 htgt hinj (ix1 (⟨r.val, h⟩ : Fin 10))
  · rw [dif_neg h]
    refine ScatterSet.scatter_set_miss _ x _ u tgt2 htgt (ix2 r l) (fun j e => h ?_)
    have e0 : (j 0).val = r.val := congrArg (fun t : S16x1.Idx => (t 0).val) e
    have : (j 0).val < 10 := (j 0).isLt
    omega

private abbrev tgt3 (_ : S_.Idx) : S16x1.Idx := ix2 (⟨10, by decide⟩ : Fin 16) (⟨0, by decide⟩ : Fin 1)

private theorem scat3_apply (x : S16x1.Idx → EReal) (u : S_.Idx → EReal) (r : Fin 16) (l : Fin 1) :
    Host.scatter scatter_S16x1_S2_S__n_01_01_0 (fun _ b => b) x (idx2 10#32 0#32) u (ix2 r l)
      = if r.val = 10 then u ix0 else x (ix2 r l) := by
  have htgt : ∀ j, scatter_S16x1_S2_S__n_01_01_0.resultIdx? j (idx2 10#32 0#32) = some (tgt3 j) :=
    fun j => resultIdx?_eq_some _ j _ _ (fun a => match a with
      | ⟨0, _⟩ => by show (10 : Int) + ((0 : Nat) : Int) = ((10 : Nat) : Int); rfl
      | ⟨1, _⟩ => by show (0 : Int) + ((0 : Nat) : Int) = ((0 : Nat) : Int); rfl)
  by_cases h : r.val = 10
  · rw [if_pos h]
    have hinj : Function.Injective tgt3 := fun j j' _ => funext fun a => a.elim0
    have e : ix2 r l = tgt3 ix0 := by
      funext a; match a with
      | ⟨0, _⟩ => exact Fin.ext h
      | ⟨1, _⟩ => exact Fin.ext (show l.val = 0 by have := l.isLt; omega)
    rw [e]
    exact ScatterSet.scatter_set_hit _ x _ u tgt3 htgt hinj ix0
  · rw [if_neg h]
    refine ScatterSet.scatter_set_miss _ x _ u tgt3 htgt (ix2 r l) (fun j e => h ?_)
    exact (congrArg (fun t : S16x1.Idx => (t 0).val) e).symm

/-! ### A 10 × 10 window at (0, 0) of a 16 × 16 array, a column of ten at (0, 10), one element at (10, 10) -/

private abbrev tgt4 (j : S10x10.Idx) : S16x16.Idx :=
  ix2 (⟨(j 0).val, Nat.lt_of_lt_of_le (idx2_lt0 j) (by decide)⟩ : Fin 16)
    (⟨(j 1).val, Nat.lt_of_lt_of_le (idx2_lt1 j) (by decide)⟩ : Fin 16)

private theorem scat4_apply (x : S16x16.Idx → EReal) (u : S10x10.Idx → EReal) (r l : Fin 16) :
    Host.scatter scatter_S16x16_S2_S10x10_01_n_01_0 (fun _ b => b) x (idx2 0#32 0#32) u (ix2 r l)
      = if h : r.val < 10 ∧ l.val < 10 then u (ix2 (⟨r.val, h.1⟩ : Fin 10) (⟨l.val, h.2⟩ : Fin 10)) else x (ix2 r l) := by
  have htgt : ∀ j, scatter_S16x16_S2_S10x10_01_n_01_0.resultIdx? j (idx2 0#32 0#32) = some (tgt4 j) :=
    fun j => resultIdx?_eq_some _ j _ _ (fun a => match a with
      | ⟨0, _⟩ => by show (0 : Int) + ((j 0).val : Int) = ((j 0).val : Int); omega
      | ⟨1, _⟩ => by show (0 : Int) + ((j 1).val : Int) = ((j 1).val : Int); omega)
  by_cases h : r.val < 10 ∧ l.val < 10
  · rw [dif_pos h]
    have hinj : Function.Injective tgt4 := fun j j' e => funext fun a => match a with
      | ⟨0, _⟩ => Fin.ext (show (j 0).val = (j' 0).val from congrArg (fun t : S16x16.Idx => (t 0).val) e)
      | ⟨1, _⟩ => Fin.ext (show (j 1).val = (j' 1).val from congrArg (fun t : S16x16.Idx => (t 1).val) e)
    exact ScatterSet.scatter_set_hit _ x _ u tgt4 htgt hinj (ix2 (⟨r.val, h.1⟩ : Fin 10) (⟨l.val, h.2⟩ : Fin 10))
  · rw [dif_neg h]
    refine ScatterSet.scatter_set_miss _ x _ u tgt4 htgt (ix2 r l) (fun j e => h ?_)
    have e0 : (j 0).val = r.val := congrArg (fun t : S16x16.Idx => (t 0).val) e
    have e1 : (j 1).val = l.val := congrArg (fun t : S16x16.Idx => (t 1).val) e
    have := idx2_lt0 j
    have := idx2_lt1 j
    exact ⟨by omega, by omega⟩

private abbrev tgt5 (j : S10.Idx) : S16x16.Idx :=
  ix2 (⟨(j 0).val, Nat.lt_of_lt_of_le (j 0).isLt (by decide)⟩ : Fin 16) (⟨10, by decide⟩ : Fin 16)

private theorem scat5_apply (x : S16x16.Idx → EReal) (u : S10.Idx → EReal) (r l : Fin 16) :
    Host.scatter scatter_S16x16_S2_S10_0_1_01_0 (fun _ b => b) x (idx2 0#32 10#32) u (ix2 r l)
      = if h : r.val < 10 ∧ l.val = 10 then u (ix1 (⟨r.val, h.1⟩ : Fin 10)) else x (ix2 r l) := by
  have htgt : ∀ j, scatter_S16x16_S2_S10_0_1_01_0.resultIdx? j (idx2 0#32 10#32) = some (tgt5 j) :=
    fun j => resultIdx?_eq_some _ j _ _ (fun a => match a with
      | ⟨0, _⟩ => by show (0 : Int) + ((j 0).val : Int) = ((j 0).val : Int); omega
      | ⟨1, _⟩ => by show (10 : Int) + ((0 : Nat) : Int) = ((10 : Nat) : Int); rfl)
  by_cases h : r.val < 10 ∧ l.val = 10
  · rw [dif_pos h]
    have hinj : Function.Injective tgt5 := fun j j' e => funext fun a => match a with
      | ⟨0, _⟩ => Fin.ext (show (j 0).val = (j' 0).val from congrArg (fun t : S16x16.Idx => (t 0).val) e)
    have e : ix2 r l = tgt5 (ix1 (⟨r.val, h.1⟩ : Fin 10)) := by
      funext a; match a with
      | ⟨0, _⟩ => rfl
      | ⟨1, _⟩ => exact Fin.ext h.2
    rw [e]
    exact ScatterSet.scatter_set_hit _ x _ u tgt5 htgt hinj (ix1 (⟨r.val, h.1⟩ : Fin 10))
  · rw [dif_neg h]
    refine ScatterSet.scatter_set_miss _ x _ u tgt5 htgt (ix2 r l) (fun j e => h ?_)
    have e0 : (j 0).val = r.val := congrArg (fun t : S16x16.Idx => (t 0).val) e
    have e1 : 10 = l.val := congrArg (fun t : S16x16.Idx => (t 1).val) e
    have : (j 0).val < 10 := (j 0).isLt
    exact ⟨by omega, e1.symm⟩

private abbrev tgt6 (_ : S_.Idx) : S16x16.Idx := ix2 (⟨10, by decide⟩ : Fin 16) (⟨10, by decide⟩ : Fin 16)

private theorem scat6_apply (x : S16x16.Idx → EReal) (u : S_.Idx → EReal) (r l : Fin 16) :
    Host.scatter scatter_S16x16_S2_S__n_01_01_0 (fun _ b => b) x (idx2 10#32 10#32) u (ix2 r l)
      = if r.val = 10 ∧ l.val = 10 then u ix0 else x (ix2 r l) := by
  have htgt : ∀ j, scatter_S16x16_S2_S__n_01_01_0.resultIdx? j (idx2 10#32 10#32) = some (tgt6 j) :=
    fun j => resultIdx?_eq_some _ j _ _ (fun a => match a with
      | ⟨0, _⟩ => by show (10 : Int) + ((0 : Nat) : Int) = ((10 : Nat) : Int); rfl
      | ⟨1, _⟩ => by show (10 : Int) + ((0 : Nat) : Int) = ((10 : Nat) : Int); rfl)
  by_cases h : r.val = 10 ∧ l.val = 10
  · rw [if_pos h]
    have hinj : Function.Injective tgt6 := fun j j' _ => funext fun a => a.elim0
    have e : ix2 r l = tgt6 ix0 := by
      funext a; match a with
      | ⟨0, _⟩ => exact Fin.ext h.1
      | ⟨1, _⟩ => exact Fin.ext h.2
    rw [e]
    exact ScatterSet.scatter_set_hit _ x _ u tgt6 htgt hinj ix0
  · rw [if_neg h]
    refine ScatterSet.scatter_set_miss _ x _ u tgt6 htgt (ix2 r l) (fun j e => h ?_)
    exact ⟨(congrArg (fun t : S16x16.Idx => (t 0).val) e).symm, (congrArg (fun t : S16x16.Idx => (t 1).val) e).symm⟩

/-! ### A row of ten at (0, 0) of an 8 × 16 array, then one element at (0, 10) -/

private abbrev tgt7 (j : S10.Idx) : S8x16.Idx :=
  ix2 (⟨0, by decide⟩ : Fin 8) (⟨(j 0).val, Nat.lt_of_lt_of_le (j 0).isLt (by decide)⟩ : Fin 16)

private theorem scat7_apply (x : S8x16.Idx → EReal) (u : S10.Idx → EReal) (r : Fin 8) (k : Fin 16) :
    Host.scatter scatter_S8x16_S2_S10_0_0_01_0 (fun _ b => b) x (idx2 0#32 0#32) u (ix2 r k)
      = if h : r.val = 0 ∧ k.val < 10 then u (ix1 (⟨k.val, h.2⟩ : Fin 10)) else x (ix2 r k) := by
  have htgt : ∀ j, scatter_S8x16_S2_S10_0_0_01_0.resultIdx? j (idx2 0#32 0#32) = some (tgt7 j) :=
    fun j => resultIdx?_eq_some _ j _ _ (fun a => match a with
      | ⟨0, _⟩ => by show (0 : Int) + ((0 : Nat) : Int) = ((0 : Nat) : Int); rfl
      | ⟨1, _⟩ => by show (0 : Int) + ((j 0).val : Int) = ((j 0).val : Int); omega)
  by_cases h : r.val = 0 ∧ k.val < 10
  · rw [dif_pos h]
    have hinj : Function.Injective tgt7 := fun j j' e => funext fun a => match a with
      | ⟨0, _⟩ => Fin.ext (show (j 0).val = (j' 0).val from congrArg (fun t : S8x16.Idx => (t 1).val) e)
    have e : ix2 r k = tgt7 (ix1 (⟨k.val, h.2⟩ : Fin 10)) := by
      funext a; match a with
      | ⟨0, _⟩ => exact Fin.ext h.1
      | ⟨1, _⟩ => rfl
    rw [e]
    exact ScatterSet.scatter_set_hit _ x _ u tgt7 htgt hinj (ix1 (⟨k.val, h.2⟩ : Fin 10))
  · rw [dif_neg h]
    refine ScatterSet.scatter_set_miss _ x _ u tgt7 htgt (ix2 r k) (fun j e => h ?_)
    have e0 : 0 = r.val := congrArg (fun t : S8x16.Idx => (t 0).val) e
    have e1 : (j 0).val = k.val := congrArg (fun t : S8x16.Idx => (t 1).val) e
    have : (j 0).val < 10 := (j 0).isLt
    exact ⟨e0.symm, by omega⟩

private abbrev tgt8 (_ : S_.Idx) : S8x16.Idx := ix2 (⟨0, by decide⟩ : Fin 8) (⟨10, by decide⟩ : Fin 16)

private theorem scat8_apply (x : S8x16.Idx → EReal) (u : S_.Idx → EReal) (r : Fin 8) (k : Fin 16) :
    Host.scatter scatter_S8x16_S2_S__n_01_01_0 (fun _ b => b) x (idx2 0#32 10#32) u (ix2 r k)
      = if r.val = 0 ∧ k.val = 10 then u ix0 else x (ix2 r k) := by
  have htgt : ∀ j, scatter_S8x16_S2_S__n_01_01_0.resultIdx? j (idx2 0#32 10#32) = some (tgt8 j) :=
    fun j => resultIdx?_eq_some _ j _ _ (fun a => match a with
      | ⟨0, _⟩ => by show (0 : Int) + ((0 : Nat) : Int) = ((0 : Nat) : Int); rfl
      | ⟨1, _⟩ => by show (10 : Int) + ((0 : Nat) : Int) = ((10 : Nat) : Int); rfl)
  by_cases h : r.val = 0 ∧ k.val = 10
  · rw [if_pos h]
    have hinj : Function.Injective tgt8 := fun j j' _ => funext fun a => a.elim0
    have e : ix2 r k = tgt8 ix0 := by
      funext a; match a with
      | ⟨0, _⟩ => exact Fin.ext h.1
      | ⟨1, _⟩ => exact Fin.ext h.2
    rw [e]
    exact ScatterSet.scatter_set_hit _ x _ u tgt8 htgt hinj ix0
  · rw [if_neg h]
    refine ScatterSet.scatter_set_miss _ x _ u tgt8 htgt (ix2 r k) (fun j e => h ?_)
    exact ⟨(congrArg (fun t : S8x16.Idx => (t 0).val) e).symm, (congrArg (fun t : S8x16.Idx => (t 1).val) e).symm⟩

/-! ## The launch arrays as the host operations' terms

Each array is the fold of the host operations before the region, read at its own reference: a zero array, and
scatters into it whose start indices are concatenations of one-element constants. -/

/-- A zero array: the scalar zero broadcast. -/
private abbrev zeros (s : Shape) (h : S_.BroadcastsInDim s ![]) : s.Idx → EReal :=
  broadcastInDim s ![] h (constant (F := Ideal) S_ .f32 0x00000000#32)
/-- The start index `(a, b)` as the program builds it: two one-element constants concatenated. -/
private abbrev cidx (a b : BitVec 32) : IVec S2 32 :=
  concatenate S2 0 [⟨S1, (broadcastInDim S1 ![] bcast_S_S1 (constantI S_ 32 a) : IVec S1 32)⟩,
    ⟨S1, (broadcastInDim S1 ![] bcast_S_S1 (constantI S_ 32 b) : IVec S1 32)⟩] concatenates_S1_S1_S2_d0

private theorem v2_term (c : Dev nD) : (V m c main_v2 : S16x2.Idx → EReal) =
    Host.scatter scatter_S16x2_S1_S10x2_01_n_0_0 (fun _ b => b) (zeros S16x2 bcast_S_S16x2)
      (broadcastInDim S1 ![] bcast_S_S1 (constantI S_ 32 0#32))
      (m ((c : Thread nD τ).loc main_arg1) : S10x2.Idx → EReal) := by
  show StableHlo.after hostOps0 (fun b => m (c, b)) (Proc.devRef .tc main_v2) = _
  after_results_simp
  all_goals (congr 1 <;> rfl)

private theorem v11_term (c : Dev nD) : (V m c main_v11 : S16x1.Idx → EReal) =
    Host.scatter scatter_S16x1_S2_S__n_01_01_0 (fun _ b => b)
      (Host.scatter scatter_S16x1_S2_S10_0_1_01_0 (fun _ b => b) (zeros S16x1 bcast_S_S16x1) (cidx 0#32 0#32)
        (m ((c : Thread nD τ).loc main_arg2) : S10.Idx → EReal))
      (cidx 10#32 0#32) (constant (F := Ideal) S_ .f32 0x3F800000#32) := by
  show StableHlo.after hostOps0 (fun b => m (c, b)) (Proc.devRef .tc main_v11) = _
  after_results_simp
  all_goals (congr 1 <;> rfl)

private theorem v24_term (c : Dev nD) : (V m c main_v24 : S16x16.Idx → EReal) =
    Host.scatter scatter_S16x16_S2_S__n_01_01_0 (fun _ b => b)
      (Host.scatter scatter_S16x16_S2_S10_0_1_01_0 (fun _ b => b)
        (Host.scatter scatter_S16x16_S2_S10x10_01_n_01_0 (fun _ b => b) (zeros S16x16 bcast_S_S16x16) (cidx 0#32 0#32)
          (m ((c : Thread nD τ).loc main_arg3) : S10x10.Idx → EReal))
        (cidx 0#32 10#32) (m ((c : Thread nD τ).loc main_arg4) : S10.Idx → EReal))
      (cidx 10#32 10#32) (constant (F := Ideal) S_ .f32 0x3F800000#32) := by
  show StableHlo.after hostOps0 (fun b => m (c, b)) (Proc.devRef .tc main_v24) = _
  after_results_simp
  all_goals (congr 1 <;> rfl)

private theorem v35_term (c : Dev nD) : (V m c main_v35 : S8x16.Idx → EReal) =
    Host.scatter scatter_S8x16_S2_S__n_01_01_0 (fun _ b => b)
      (Host.scatter scatter_S8x16_S2_S10_0_0_01_0 (fun _ b => b) (zeros S8x16 bcast_S_S8x16) (cidx 0#32 0#32)
        (shapeCast S10 (m ((c : Thread nD τ).loc main_arg5) : S1x10.Idx → EReal) shapeCasts_S1x10_S10))
      (cidx 0#32 10#32)
      (shapeCast S_ (m ((c : Thread nD τ).loc main_arg6) : S1.Idx → EReal) shapeCasts_S1_S_) := by
  show StableHlo.after hostOps0 (fun b => m (c, b)) (Proc.devRef .tc main_v35) = _
  after_results_simp
  all_goals (congr 1 <;> rfl)

/-! ## Constants and reshapes read at an index -/

/-- A zero array reads zero everywhere. -/
private theorem zeros_apply (s : Shape) (h : S_.BroadcastsInDim s ![]) (i : s.Idx) : zeros s h i = 0 :=
  Ideal.ofBits_zero_f32

/-- The scalar constant whose word is `0x3F800000` reads one. -/
private theorem one_apply (i : S_.Idx) : constant (F := Ideal) S_ .f32 0x3F800000#32 i = 1 :=
  Ideal.ofBits_one_f32

/-- The program's start index `(a, b)` is the literal one. -/
private theorem cidx_eq (a b : BitVec 32) : cidx a b = idx2 a b := concat_idx a b

/-- A one-element vector reshaped to a scalar reads its element. -/
private theorem shapeCast_S1_S_ {α : Type} (x : S1.Idx → α) (h : S1.ShapeCasts S_) (i : S_.Idx) :
    shapeCast S_ x h i = x (ix1 (0 : Fin 1)) :=
  shapeCast_apply x h i (ix1 (0 : Fin 1)) (by
    have h2 : (S_.rowMajor i).val < 1 :=
      lt_of_lt_of_eq (S_.rowMajor i).isLt (Shape.numel_eq_one (fun a => a.elim0))
    rw [Shape.rowMajor_val_one]
    show (0 : Nat) = _
    omega)

/-! ## The four arrays -/

/-- The first layer's matrix: rows 0–9 the argument `w1`, the rest zero. -/
theorem V_v2 (c : Dev nD) (r : Fin 16) (i : Fin 2) :
    (V m c main_v2 : S16x2.Idx → EReal) (ix2 r i)
      = Cert.Mlp.W1a (fun a b => (m ((c : Thread nD τ).loc main_arg1) : S10x2.Idx → EReal) (ix2 a b)) r i := by
  refine (congrFun (v2_term m c) (ix2 r i)).trans ((scat1_apply _ _ r i).trans ?_)
  unfold Cert.Mlp.W1a
  by_cases h : r.val < 10
  · rw [dif_pos h, dif_pos h]
  · rw [dif_neg h, dif_neg h]; exact zeros_apply _ _ _

/-- The first layer's bias column: rows 0–9 the argument `b1`, row 10 one, the rest zero. -/
theorem V_v11 (c : Dev nD) (r : Fin 16) :
    (V m c main_v11 : S16x1.Idx → EReal) (ix2 r 0)
      = Cert.Mlp.bv1 (fun a => (m ((c : Thread nD τ).loc main_arg2) : S10.Idx → EReal) (ix1 a)) r := by
  refine (congrFun (v11_term m c) (ix2 r 0)).trans ?_
  rw [cidx_eq, cidx_eq, scat3_apply, scat2_apply]
  unfold Cert.Mlp.bv1
  by_cases h : r.val < 10
  · rw [if_neg (by omega : ¬ r.val = 10), dif_pos h, dif_pos h]
  · rw [dif_neg h, dif_neg h]
    by_cases h' : r.val = 10
    · rw [if_pos h', if_pos h']; exact one_apply _
    · rw [if_neg h', if_neg h']; exact zeros_apply _ _ _

/-- The second layer's matrix: `w2` in the corner, `b2` in column 10, one at (10, 10), the rest zero. -/
theorem V_v24 (c : Dev nD) (r l : Fin 16) :
    (V m c main_v24 : S16x16.Idx → EReal) (ix2 r l)
      = Cert.Mlp.W2a (fun a b => (m ((c : Thread nD τ).loc main_arg3) : S10x10.Idx → EReal) (ix2 a b))
          (fun a => (m ((c : Thread nD τ).loc main_arg4) : S10.Idx → EReal) (ix1 a)) r l := by
  refine (congrFun (v24_term m c) (ix2 r l)).trans ?_
  rw [cidx_eq, cidx_eq, cidx_eq, scat6_apply, scat5_apply, scat4_apply]
  unfold Cert.Mlp.W2a
  by_cases hr : r.val < 10
  · rw [dif_pos hr, if_neg (by omega : ¬ (r.val = 10 ∧ l.val = 10))]
    by_cases hl : l.val < 10
    · rw [dif_pos hl, dif_neg (by omega : ¬ (r.val < 10 ∧ l.val = 10)), dif_pos ⟨hr, hl⟩]
    · rw [dif_neg hl]
      by_cases hl' : l.val = 10
      · rw [if_pos hl', dif_pos ⟨hr, hl'⟩]
      · rw [if_neg hl', dif_neg (by omega : ¬ (r.val < 10 ∧ l.val = 10)), dif_neg (by omega : ¬ (r.val < 10 ∧ l.val < 10))]
        exact zeros_apply _ _ _
  · rw [dif_neg hr]
    by_cases h : r.val = 10 ∧ l.val = 10
    · rw [if_pos h, if_pos h]; exact one_apply _
    · rw [if_neg h, if_neg h, dif_neg (by omega : ¬ (r.val < 10 ∧ l.val = 10)),
        dif_neg (by omega : ¬ (r.val < 10 ∧ l.val < 10))]
      exact zeros_apply _ _ _

/-- Row 0 of the third layer's matrix: `w3` in columns 0–9, `b3` in column 10, the rest zero. -/
theorem V_v35 (c : Dev nD) (k : Fin 16) :
    (V m c main_v35 : S8x16.Idx → EReal) (ix2 0 k)
      = Cert.Mlp.W3a (fun a => (m ((c : Thread nD τ).loc main_arg5) : S1x10.Idx → EReal) (ix2 0 a))
          ((m ((c : Thread nD τ).loc main_arg6) : S1.Idx → EReal) (ix1 0)) k := by
  refine (congrFun (v35_term m c) (ix2 0 k)).trans ?_
  rw [cidx_eq, cidx_eq, scat8_apply, scat7_apply]
  unfold Cert.Mlp.W3a
  have h0 : ((0 : Fin 8)).val = 0 := rfl
  by_cases h : k.val < 10
  · rw [if_neg (by omega : ¬ ((0 : Fin 8).val = 0 ∧ k.val = 10)), dif_pos ⟨h0, h⟩, dif_pos h]
    exact shapeCast_1a_a_apply _ _ _
  · rw [dif_neg h, dif_neg (by omega : ¬ ((0 : Fin 8).val = 0 ∧ k.val < 10))]
    by_cases h' : k.val = 10
    · rw [if_pos ⟨h0, h'⟩, if_pos h']; exact shapeCast_S1_S_ _ _ _
    · rw [if_neg (by omega : ¬ ((0 : Fin 8).val = 0 ∧ k.val = 10)), if_neg h']; exact zeros_apply _ _ _

end Cert.KernelIdeal.HostVal

end
-- ==== Proof.LibMatmulPlain.lean ====
/-
  A plain matrix product `[M, K] × [K, N] → [M, N]` into a zero accumulator, read at an entry on the extended
  reals: entry `(p, q)` is `Σ k, lhs (p, k) · rhs (k, q)` over `k : Fin K`.
-/
import Idealize.ShloMosaic.PureOps.Ideal.Laws
import Idealize.ShloMosaic.Lib.ValueIdx

namespace Idealize.ShloMosaic.MatmulPlain

open Idealize.ShloMosaic Idealize.ShloMosaic.ValueIdx

/-- The plain product contracts one axis … -/
private theorem contr_rank (M K N : Nat) : (DotDims.plain M K N).contr.rank = 1 := rfl

/-- … of extent `K`. -/
private theorem contr_size (M K N : Nat) :
    (DotDims.plain M K N).contr.size ⟨0, by rw [contr_rank]; exact Nat.one_pos⟩ = K := rfl

/-- At output entry `(p, q)` and contraction coordinate `k` the left operand is read at `(p, k)`. -/
private theorem lhsIdx_plain {M K N : Nat} (p : Fin M) (q : Fin N) (k : Fin K) :
    (DotDims.plain M K N).lhsIdx (ix2 p q)
        ((contrEquiv1 (DotDims.plain M K N) K (contr_rank M K N) (contr_size M K N)).symm k) = ix2 p k := by
  funext a
  match a with
  | ⟨0, _⟩ => exact Fin.ext rfl
  | ⟨1, _⟩ => exact Fin.ext rfl

/-- At output entry `(p, q)` and contraction coordinate `k` the right operand is read at `(k, q)`. -/
private theorem rhsIdx_plain {M K N : Nat} (p : Fin M) (q : Fin N) (k : Fin K) :
    (DotDims.plain M K N).rhsIdx (ix2 p q)
        ((contrEquiv1 (DotDims.plain M K N) K (contr_rank M K N) (contr_size M K N)).symm k) = ix2 k q := by
  funext a
  match a with
  | ⟨0, _⟩ => exact Fin.ext rfl
  | ⟨1, _⟩ => exact Fin.ext rfl

/-- Entry `(p, q)` of the product is the sum over the contracted axis. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  -- the sum over the contraction's own index set …
  rw [Ideal.matmul_constant_zero_apply]
  -- … re-indexed by its one coordinate …
  rw [← Equiv.sum_comp (contrEquiv1 (DotDims.plain M K N) K (contr_rank M K N) (contr_size M K N)).symm]
  -- … reads the two operands at `(p, k)` and `(k, q)`.
  refine Finset.sum_congr rfl fun k _ => ?_
  rw [lhsIdx_plain, rhsIdx_plain]

end Idealize.ShloMosaic.MatmulPlain
-- ==== Proof.KBody.lean ====
/-
  What the kernel's body stores, read at an entry of its one output row: on the extended reals the stored value at
  lane `q` is the augmented perceptron of the loaded weight blocks applied to column `q` of the loaded input block.
-/
import proofs.«154862_g2000409670772848_pallaspilot1_20_3_alg».proof.Proof.Gen.KernelIdeal.Skeleton
import proofs.«154862_g2000409670772848_pallaspilot1_20_3_alg».proof.Proof.Spec
import proofs.«154862_g2000409670772848_pallaspilot1_20_3_alg».proof.Proof.LibMatmulPlain
import Idealize.ShloMosaic.Lib.Pipeline.Value
import Idealize.ShloMosaic.Lib.ValueLayout

noncomputable section

namespace Cert.KernelIdeal.BodyVal

open Idealize.ShloMosaic Idealize.ShloMosaic.ValueIdx
open Cert.KernelIdeal Cert.KernelIdeal.Gen

/-- A column `[a, 1]` broadcast along the lanes to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into zero, plus a bias column, clipped below at zero, read at `(p, q)`. -/
private theorem dense_bias_relu_apply {M K N : ℕ} (W : FVec Ideal ⟨2, ![M, K]⟩ .f32) (X : FVec Ideal ⟨2, ![K, N]⟩ .f32)
    (B : FVec Ideal ⟨2, ![M, 1]⟩ .f32) (hb : (⟨2, ![M, 1]⟩ : Shape).Broadcasts ⟨2, ![M, N]⟩) (p : Fin M) (q : Fin N) :
    maximumf (addf (matmul (DotDims.plain M K N) none W X (constant (F := Ideal) ⟨2, ![M, N]⟩ .f32 0x00000000#32))
        (broadcastTo ⟨2, ![M, N]⟩ B hb)) (broadcast ⟨2, ![M, N]⟩ (Scalar.ofBits (F := Ideal) .f32 0x00000000#32)) (ix2 p q)
      = max ((∑ k : Fin K, W (ix2 p k) * X (ix2 k q)) + B (ix2 p 0)) 0 := by
  show max (FloatOps.matmul (DotDims.plain M K N) none W X (constant (F := Ideal) ⟨2, ![M, N]⟩ .f32 0x00000000#32) (ix2 p q)
      + broadcastTo ⟨2, ![M, N]⟩ B hb (ix2 p q)) (Ideal.ofBits .f32 0x00000000#32) = _
  rw [MatmulPlain.matmul_plain_zero_apply, broadcastTo_a1_ab_apply, Ideal.ofBits_zero_f32]

/-- A product into zero, clipped below at zero, read at `(p, q)`. -/
private theorem dense_relu_apply {M K N : ℕ} (W : FVec Ideal ⟨2, ![M, K]⟩ .f32) (X : FVec Ideal ⟨2, ![K, N]⟩ .f32)
    (p : Fin M) (q : Fin N) :
    maximumf (matmul (DotDims.plain M K N) none W X (constant (F := Ideal) ⟨2, ![M, N]⟩ .f32 0x00000000#32))
        (broadcast ⟨2, ![M, N]⟩ (Scalar.ofBits (F := Ideal) .f32 0x00000000#32)) (ix2 p q)
      = max (∑ k : Fin K, W (ix2 p k) * X (ix2 k q)) 0 := by
  show max (FloatOps.matmul (DotDims.plain M K N) none W X (constant (F := Ideal) ⟨2, ![M, N]⟩ .f32 0x00000000#32) (ix2 p q))
      (Ideal.ofBits .f32 0x00000000#32) = _
  rw [MatmulPlain.matmul_plain_zero_apply, Ideal.ofBits_zero_f32]

/-- The first hidden layer as the body computes it. -/
private def h1v (w1a : FVec Ideal S16x2 .f32) (x : FVec Ideal S2x32768 .f32) (bv : FVec Ideal S16x1 .f32) : FVec Ideal S16x32768 .f32 :=
  maximumf (addf (matmul dot_S16x2_S2x32768_S16x32768_1_0_0_1_n_n none (shapeCast S16x2 w1a Facts₀.shapeCasts_S16x2_S16x2) x
      (constant (F := Ideal) S16x32768 .f32 0x00000000#32))
    (broadcastTo S16x32768 (shapeCast S16x1 bv Facts₀.shapeCasts_S16x1_S16x1) Facts₀.broadcasts_S16x1_S16x32768))
    (broadcast S16x32768 (Scalar.ofBits (F := Ideal) .f32 0x00000000#32))

/-- The second hidden layer as the body computes it. -/
private def h2v (w2a : FVec Ideal S16x16 .f32) (h1 : FVec Ideal S16x32768 .f32) : FVec Ideal S16x32768 .f32 :=
  maximumf (matmul dot_S16x16_S16x32768_S16x32768_1_0_0_1_n_n none (shapeCast S16x16 w2a Facts₀.shapeCasts_S16x16_S16x16) h1
      (constant (F := Ideal) S16x32768 .f32 0x00000000#32))
    (broadcast S16x32768 (Scalar.ofBits (F := Ideal) .f32 0x00000000#32))

/-- The eight output rows as the body computes them. -/
private def outv (w3a : FVec Ideal S8x16 .f32) (h2 : FVec Ideal S16x32768 .f32) : FVec Ideal S8x32768 .f32 :=
  matmul dot_S8x16_S16x32768_S8x32768_1_0_0_1_n_n none (shapeCast S8x16 w3a Facts₀.shapeCasts_S8x16_S8x16) h2
    (constant (F := Ideal) S8x32768 .f32 0x00000000#32)

/-- The stored value is row 0 of the third product over the two clipped layers. -/
private theorem pay1_eq (w1a : Vec Ideal S16x2 .f32) (x : Vec Ideal S2x32768 .f32) (bv : Vec Ideal S16x1 .f32)
    (w2a : Vec Ideal S16x16 .f32) (w3a : Vec Ideal S8x16 .f32) :
    k0_pay1 (F := Ideal) w1a x bv w2a w3a
      = extractStridedSlice S1x32768 ![0, 0] (outv w3a (h2v w2a (h1v w1a x bv))) Facts₀.slices_S8x32768_o0_0_S1x32768 := rfl

/-- Layer one at `(r, q)`. -/
private theorem h1v_apply (w1a : FVec Ideal S16x2 .f32) (x : FVec Ideal S2x32768 .f32) (bv : FVec Ideal S16x1 .f32)
    (r : Fin 16) (q : Fin 32768) :
    h1v w1a x bv (ix2 r q)
      = Cert.Mlp.aug1 (fun r i => w1a (ix2 r i)) (fun r => bv (ix2 r 0)) (fun i => x (ix2 i q)) r := by
  unfold h1v
  rw [shapeCast_self, shapeCast_self]
  exact dense_bias_relu_apply (M := 16) (K := 2) (N := 32768) w1a x bv _ r q

/-- Layer two at `(r, q)`. -/
private theorem h2v_apply (w2a : FVec Ideal S16x16 .f32) (h1 : FVec Ideal S16x32768 .f32) (r : Fin 16) (q : Fin 32768) :
    h2v w2a h1 (ix2 r q) = Cert.Mlp.aug2 (fun r l => w2a (ix2 r l)) (fun l => h1 (ix2 l q)) r := by
  unfold h2v
  rw [shapeCast_self]
  exact dense_relu_apply (M := 16) (K := 16) (N := 32768) w2a h1 r q

/-- The output rows at `(r, q)`. -/
private theorem outv_apply (w3a : FVec Ideal S8x16 .f32) (h2 : FVec Ideal S16x32768 .f32) (r : Fin 8) (q : Fin 32768) :
    outv w3a h2 (ix2 r q) = ∑ k : Fin 16, w3a (ix2 r k) * h2 (ix2 k q) := by
  unfold outv
  rw [shapeCast_self]
  exact MatmulPlain.matmul_plain_zero_apply (M := 8) (K := 16) (N := 32768) none w3a h2 r q

/-- Row 0 of the one-row slice at offset `(0, 0)` is row 0 of the eight rows. -/
private theorem slice_row0_apply (v : FVec Ideal S8x32768 .f32) (h : S8x32768.Slices ![0, 0] S1x32768) (q : Fin 32768) :
    extractStridedSlice S1x32768 ![0, 0] v h (ix2 0 q) = v (ix2 0 q) := by
  refine extractStridedSlice_apply ![0, 0] v h (ix2 0 q) (ix2 0 q) fun a => ?_
  match a with
  | ⟨0, _⟩ => rfl
  | ⟨1, _⟩ => exact (Nat.zero_add _).symm

attribute [local irreducible] h1v h2v outv

/-- The stored row at lane `q`: three matrix products into zero, two maxima with zero, row 0 kept. -/
theorem pay1_apply (w1a : Vec Ideal S16x2 .f32) (x : Vec Ideal S2x32768 .f32) (bv : Vec Ideal S16x1 .f32)
    (w2a : Vec Ideal S16x16 .f32) (w3a : Vec Ideal S8x16 .f32) (q : Fin 32768) :
    (k0_pay1 (F := Ideal) w1a x bv w2a w3a : S1x32768.Idx → EReal) (ix2 0 q)
      = Cert.Mlp.mlpAug (fun r i => w1a (ix2 r i)) (fun r => bv (ix2 r 0)) (fun r l => w2a (ix2 r l))
          (fun k => w3a (ix2 0 k)) (fun i => x (ix2 i q)) := by
  rw [pay1_eq]
  -- row 0 of the slice is row 0 of the eight output rows, a sum over the second layer's sixteen units
  refine (slice_row0_apply (outv w3a (h2v w2a (h1v w1a x bv))) _ q).trans ?_
  refine (outv_apply w3a (h2v w2a (h1v w1a x bv)) 0 q).trans ?_
  unfold Cert.Mlp.mlpAug Cert.Mlp.aug3
  refine Finset.sum_congr rfl fun k _ => ?_
  -- each second-layer unit is the clipped sum over the first layer's sixteen units
  refine congrArg (fun t => w3a (ix2 0 k) * t) ?_
  refine (h2v_apply w2a (h1v w1a x bv) k q).trans ?_
  refine congrArg (fun h => Cert.Mlp.aug2 (fun r l => w2a (ix2 r l)) h k) ?_
  funext l
  exact h1v_apply w1a x bv l q

end Cert.KernelIdeal.BodyVal

end
-- ==== Proof.KValue.lean ====
/-
  The idealized kernel's run, read: the pallas_call writes, at grid point `t`, lanes `t · 32768 … t · 32768 + 32767`
  of its one output row; every lane `j` ends at the augmented perceptron of the launch arrays on column `j` of the
  input; the 128 blocks tile the row; the two reshapes after the call relabel entry `(0, j)` as `(j, 0)`. With the
  launch arrays read as the augmented weights of the arguments and the law of the specification, the result is the
  plain perceptron on every column.
-/
import proofs.«154862_g2000409670772848_pallaspilot1_20_3_alg».proof.Proof.Gen.KernelIdeal.Frame
import proofs.«154862_g2000409670772848_pallaspilot1_20_3_alg».proof.Proof.Spec
import proofs.«154862_g2000409670772848_pallaspilot1_20_3_alg».proof.Proof.KHost
import proofs.«154862_g2000409670772848_pallaspilot1_20_3_alg».proof.Proof.KBody
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RunVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The output row as one function of the launch arrays: lane `j` is the augmented perceptron on column `j`. -/
def row (c : Dev nD) : S1x4194304.Idx → EReal := fun i =>
  Cert.Mlp.mlpAug (fun r a => (V m c main_v2 : S16x2.Idx → EReal) (ix2 r a))
    (fun r => (V m c main_v11 : S16x1.Idx → EReal) (ix2 r 0))
    (fun r l => (V m c main_v24 : S16x16.Idx → EReal) (ix2 r l))
    (fun k => (V m c main_v35 : S8x16.Idx → EReal) (ix2 0 k))
    (fun a => (V m c main_arg0 : S2x4194304.Idx → EReal) (ix2 a (i 1)))

/-- Equal weights and equal columns give equal values. -/
theorem mlpAug_congr {W1 W1' : Fin 16 → Fin 2 → EReal} {bv bv' : Fin 16 → EReal} {W2 W2' : Fin 16 → Fin 16 → EReal}
    {W3 W3' : Fin 16 → EReal} {x x' : Fin 2 → EReal} (h1 : W1 = W1') (h2 : bv = bv') (h3 : W2 = W2') (h4 : W3 = W3')
    (h0 : x = x') : Cert.Mlp.mlpAug W1 bv W2 W3 x = Cert.Mlp.mlpAug W1' bv' W2' W3' x' := by
  subst h1 h2 h3 h4 h0; rfl

/-- The printed index maps over the grid: the input and the output move along the lanes with the point, the weights stay. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The first weight block is the whole array. -/
theorem blk1 (c : Dev nD) (t : Fin cfg0.N) (r : Fin 16) (a : Fin 2) :
    iblk m c 1 t (ix2 r a) = (V m c main_v2 : S16x2.Idx → EReal) (ix2 r a) := by
  obtain ⟨-, -, e0, e1, -⟩ := idx_facts t
  show V m c main_v2 (((cfg0.win 1).blk t).view.emb (ix2 r a)) = V m c main_v2 (ix2 r a)
  congr 1
  funext d; apply Fin.ext
  match d with
  | ⟨0, _⟩ => show win0_1.index t (0 : Fin 2) * 16 + 1 * r.val = r.val; omega
  | ⟨1, _⟩ => show win0_1.index t (1 : Fin 2) * 2 + 1 * a.val = a.val; omega

/-- The bias column's block is the whole array. -/
theorem blk2 (c : Dev nD) (t : Fin cfg0.N) (r : Fin 16) :
    iblk m c 2 t (ix2 r 0) = (V m c main_v11 : S16x1.Idx → EReal) (ix2 r 0) := by
  obtain ⟨-, -, -, -, e0, e1, -⟩ := idx_facts t
  show V m c main_v11 (((cfg0.win 2).blk t).view.emb (ix2 r 0)) = V m c main_v11 (ix2 r 0)
  congr 1
  funext d; apply Fin.ext
  match d with
  | ⟨0, _⟩ => show win0_2.index t (0 : Fin 2) * 16 + 1 * r.val = r.val; omega
  | ⟨1, _⟩ => show win0_2.index t (1 : Fin 2) * 1 + 1 * 0 = 0; omega

/-- The second weight block is the whole array. -/
theorem blk3 (c : Dev nD) (t : Fin cfg0.N) (r l : Fin 16) :
    iblk m c 3 t (ix2 r l) = (V m c main_v24 : S16x16.Idx → EReal) (ix2 r l) := by
  obtain ⟨-, -, -, -, -, -, e0, e1, -⟩ := idx_facts t
  show V m c main_v24 (((cfg0.win 3).blk t).view.emb (ix2 r l)) = V m c main_v24 (ix2 r l)
  congr 1
  funext d; apply Fin.ext
  match d with
  | ⟨0, _⟩ => show win0_3.index t (0 : Fin 2) * 16 + 1 * r.val = r.val; omega
  | ⟨1, _⟩ => show win0_3.index t (1 : Fin 2) * 16 + 1 * l.val = l.val; omega

/-- The third weight block is the whole array. -/
theorem blk4 (c : Dev nD) (t : Fin cfg0.N) (k : Fin 16) :
    iblk m c 4 t (ix2 0 k) = (V m c main_v35 : S8x16.Idx → EReal) (ix2 0 k) := by
  obtain ⟨-, -, -, -, -, -, -, -, e0, e1, -⟩ := idx_facts t
  show V m c main_v35 (((cfg0.win 4).blk t).view.emb (ix2 0 k)) = V m c main_v35 (ix2 0 k)
  congr 1
  funext d; apply Fin.ext
  match d with
  | ⟨0, _⟩ => show win0_4.index t (0 : Fin 2) * 8 + 1 * 0 = 0; omega
  | ⟨1, _⟩ => show win0_4.index t (1 : Fin 2) * 16 + 1 * k.val = k.val; omega

/-- The input block at point `t` holds lanes `t · 32768 + q` of the input. -/
theorem blk0 (c : Dev nD) (t : Fin cfg0.N) (a : Fin 2) (q : Fin 32768) (j : Fin 4194304) (hj : j.val = t.val * 32768 + q.val) :
    iblk m c 0 t (ix2 a q) = (V m c main_arg0 : S2x4194304.Idx → EReal) (ix2 a j) := by
  obtain ⟨e0, e1, -⟩ := idx_facts t
  show V m c main_arg0 (((cfg0.win 0).blk t).view.emb (ix2 a q)) = V m c main_arg0 (ix2 a j)
  congr 1
  funext d; apply Fin.ext
  match d with
  | ⟨0, _⟩ => show win0_0.index t (0 : Fin 2) * 2 + 1 * a.val = a.val; omega
  | ⟨1, _⟩ => show win0_0.index t (1 : Fin 2) * 32768 + 1 * q.val = j.val; omega

/-- WHAT POINT `t` WRITES BACK is block `t` of the row. -/
theorem flushed_eq (c : Dev nD) (t : Fin cfg0.N) :
    (dats m 0 c).flushed 5 t = ((cfg0.win 5).blk t).view.read (Elt Ideal) (row m c) := by
  show (cfg0.win 5).cut (grid0.coords t) ((dats m 0 c).after 5 t) = _
  rw [after0_5]
  unfold out0_5
  rw [View.canon_unit_zero hz]
  simp only [View.ld_unit_zero (S := S16x2) hz, View.ld_unit_zero (S := S2x32768) hz, View.ld_unit_zero (S := S16x1) hz,
    View.ld_unit_zero (S := S16x16) hz, View.ld_unit_zero (S := S8x16) hz]
  funext y
  obtain ⟨p, q, rfl⟩ : ∃ (p : Fin 1) (q : Fin 32768), y = ix2 p q := ⟨y 0, y 1, eq_ix2 y⟩
  obtain rfl : p = 0 := Subsingleton.elim _ _
  show k0_pay1 (F := Ideal) (iblk m c 1 t) (iblk m c 0 t) (iblk m c 2 t) (iblk m c 3 t) (iblk m c 4 t) (ix2 0 q)
    = row m c (((cfg0.win 5).blk t).view.emb (ix2 0 q))
  refine (Cert.KernelIdeal.BodyVal.pay1_apply (iblk m c 1 t) (iblk m c 0 t) (iblk m c 2 t) (iblk m c 3 t) (iblk m c 4 t) q).trans ?_
  obtain ⟨-, -, -, -, -, -, -, -, -, -, e0, e1⟩ := idx_facts t
  exact mlpAug_congr (funext fun r => funext fun a => blk1 m c t r a) (funext fun r => blk2 m c t r)
    (funext fun r => funext fun l => blk3 m c t r l) (funext fun k => blk4 m c t k)
    (funext fun a => blk0 m c t a q (((cfg0.win 5).blk t).view.emb (ix2 0 q) 1) (by
      show win0_5.index t (1 : Fin 2) * 32768 + 1 * q.val = t.val * 32768 + q.val
      omega))

/-- An index of the row is in point `t`'s block iff each coordinate is in the block's range on its axis. -/
theorem mem_blk (t : Fin cfg0.N) (i : S1x4194304.Idx) :
    i ∈ ((cfg0.win 5).blk t).view.set ↔ ∀ a : Fin 2, win0_5.index t a * S1x32768.size a ≤ (i a).val ∧ (i a).val < win0_5.index t a * S1x32768.size a + S1x32768.size a := by
  show i ∈ ((View.whole main_v36).slice (win0_5.rect t)).set ↔ _
  rw [View.set_slice_whole, Rect.mem_set_unit]
  exact Iff.rfl

/-- Every lane lies in the block of the point `lane / 32768`. -/
theorem cover (i : S1x4194304.Idx) : ∃ t : Fin cfg0.N, (cfg0.win 5).flush t = true ∧ i ∈ ((cfg0.win 5).blk t).view.set := by
  have hi0 : (i 0).val < 1 := (i 0).isLt
  have hi1 : (i 1).val < 4194304 := (i 1).isLt
  have hN : (i 1).val / 32768 < cfg0.N := by
    show (i 1).val / 32768 < grid0.N
    rw [N_0]; omega
  refine ⟨⟨(i 1).val / 32768, hN⟩, flush0_5 _, ?_⟩
  obtain ⟨-, -, -, -, -, -, -, -, -, -, e0, e1⟩ := idx_facts ⟨(i 1).val / 32768, hN⟩
  rw [mem_blk]
  intro a
  match a with
  | ⟨0, _⟩ => show win0_5.index ⟨(i 1).val / 32768, hN⟩ (0 : Fin 2) * 1 ≤ (i 0).val ∧ (i 0).val < win0_5.index ⟨(i 1).val / 32768, hN⟩ (0 : Fin 2) * 1 + 1; omega
  | ⟨1, _⟩ => show win0_5.index ⟨(i 1).val / 32768, hN⟩ (1 : Fin 2) * 32768 ≤ (i 1).val ∧ (i 1).val < win0_5.index ⟨(i 1).val / 32768, hN⟩ (1 : Fin 2) * 32768 + 32768; simp only [e1]; omega

/-- THE ROW after the pallas_call. -/
theorem final (c : Dev nD) : (dats m 0 c).arrAt 5 cfg0.N = row m c :=
  (dats m 0 c).arrAt_eq_of_cover 5 (row m c) (fun t _ => flushed_eq m c t) cover

/-- The program's result: the two reshapes after the call relabel lane `j` of the row as entry `(j, 0)`. -/
theorem tail (c : Dev nD) :
    Pipeline.afterTail₀ cfgs (dats m) 0 (V0 m) [hostOps1] c main_v38 = fun i : S4194304x1.Idx => row m c (ix2 0 (i 0)) := by
  unfold Pipeline.afterTail₀
  show StableHlo.after hostOps1 _ (Proc.devRef .tc main_v38) = _
  after_results
  have hw : Pipeline.withArrays (cfgs 0).spec c (V0 m c) (fun w => (dats m 0 c).arrAt w (cfgs 0).N) (Proc.tc.devRef main_v36)
      = row m c := (Pipeline.withArrays_arr spec0 launch0.win.arr_inj c _ _ 5).trans (final m c)
  funext i
  obtain ⟨j, z, rfl⟩ : ∃ (j : Fin 4194304) (z : Fin 1), i = ix2 j z := ⟨i 0, i 1, eq_ix2 i⟩
  obtain rfl : z = 0 := Subsingleton.elim _ _
  show shapeCast S4194304x1 (shapeCast S4194304 (Pipeline.withArrays (cfgs 0).spec c (V0 m c)
      (fun w => (dats m 0 c).arrAt w (cfgs 0).N) (Proc.tc.devRef main_v36)) shapeCasts_S1x4194304_S4194304)
      shapeCasts_S4194304_S4194304x1 (ix2 j 0) = row m c (ix2 0 j)
  rw [shapeCast_apply _ _ (ix2 j (0 : Fin 1)) (ix1 j) (by
      rw [Shape.rowMajor_val_two, Shape.rowMajor_val_one]
      show j.val = j.val * 1 + 0
      omega),
    shapeCast_apply _ _ (ix1 j) (ix2 (0 : Fin 1) j) (by
      rw [Shape.rowMajor_val_two, Shape.rowMajor_val_one]
      show 0 * 4194304 + j.val = j.val
      omega)]
  exact congrFun hw _

/-- The row, relabelled, is the specification's result: the launch arrays are the augmented weights of the arguments,
    and through them the perceptron is unchanged. -/
theorem row_eq (c : Dev nD) :
    (fun i : S4194304x1.Idx => row m c (ix2 0 (i 0)))
      = Cert.Mlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  exact (mlpAug_congr (funext fun r => funext fun a => Cert.KernelIdeal.HostVal.V_v2 m c r a)
    (funext fun r => Cert.KernelIdeal.HostVal.V_v11 m c r)
    (funext fun r => funext fun l => Cert.KernelIdeal.HostVal.V_v24 m c r l)
    (funext fun k => Cert.KernelIdeal.HostVal.V_v35 m c k)
    (funext fun a => congrFun (V_main_arg0 m c) (ix2 a (i 0)))).trans (Cert.Mlp.mlpAug_eq _ _ _ _ _ _ _)

/-- THE RUN, READ: every weakly fair execution ends with the result at the specification's function of the
    arguments, and the arguments as launched. -/
theorem run : θ_run defs (onTc (τ := τ) (main (F := Ideal))) ⟨m, fun _ => 0, ρ⟩ (fun r => ∀ c : Dev nD,
      r.2.mem ((c.tc : Thread nD τ).loc main_v38)
        = Cert.Mlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v38 (Pipeline.mem_restRefs_of main_v38 (by decide) (by decide))).trans ((tail m c).trans (row_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunVal

end
-- ==== Proof.RHost.lean ====
/-
  The packed bias array the reference's pallas_call is launched on, read at an index: column 0 is `b1`,
  column 1 is `b2`, entry (0, 2) is `b3`.
-/
import proofs.«154862_g2000409670772848_pallaspilot1_20_3_alg».proof.Proof.Gen.ReferenceIdeal.Frame
import proofs.«154862_g2000409670772848_pallaspilot1_20_3_alg».proof.Proof.Spec
import proofs.«154862_g2000409670772848_pallaspilot1_20_3_alg».proof.Proof.LibScatterSet
import Idealize.ShloMosaic.Lib.Pipeline.Value

noncomputable section

namespace Cert.ReferenceIdeal.HostVal

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-! ## The two scatters' dimension numbers, closed, and where their updates land -/

/-- The column scatter's dimension numbers (an update of ten rows written into one column). -/
private def dCol : ScatterDims S10x3 S1 S10 :=
  { updateWindowDims := [0], insertedWindowDims := [1], scatterDimsToOperandDims := [1], indexVectorDim := 0, wf := by decide }
private theorem dCol_eq : scatter_S10x3_S1_S10_0_1_1_0 = dCol := rfl

/-- The single-element scatter's dimension numbers (a scalar update written at one index). -/
private def dPt : ScatterDims S10x3 S2 S_ :=
  { updateWindowDims := [], insertedWindowDims := [0, 1], scatterDimsToOperandDims := [0, 1], indexVectorDim := 0, wf := by decide }
private theorem dPt_eq : scatter_S10x3_S2_S__n_01_01_0 = dPt := rfl

/-- Update row `j` of a column scatter at column `col` lands on `(j, col)`. -/
private def tgtCol (col : Fin 3) (j : S10.Idx) : S10x3.Idx := ix2 (n0 := 10) (n1 := 3) (j 0) col

private theorem dCol_tgt : ∀ (col : Fin 3) (j : S10.Idx),
    dCol.resultIdx? j (fun _ => BitVec.ofNat 32 col.val : S1.Idx → BitVec 32) = some (tgtCol col j) := by
  decide +kernel

private theorem tgtCol_inj (col : Fin 3) : Function.Injective (tgtCol col) := by
  intro j j' h
  have h0 : j 0 = j' 0 := congrFun h ⟨0, by decide⟩
  funext a
  match a with
  | ⟨0, _⟩ => exact h0

/-- The scalar update of the single-element scatter at the index vector `(0, 2)` lands on `(0, 2)`. -/
private def tgtPt (_ : S_.Idx) : S10x3.Idx := ix2 (n0 := 10) (n1 := 3) 0 2

private theorem dPt_tgt : ∀ (j : S_.Idx),
    dPt.resultIdx? j (fun k => (![0#32, 2#32] : Fin 2 → BitVec 32) (k 0) : S2.Idx → BitVec 32) = some (tgtPt j) := by
  decide +kernel

private theorem tgtPt_inj : Function.Injective tgtPt :=
  fun _ _ _ => funext fun a => a.elim0

/-! ## The scatters read at an index, over variable arrays -/

/-- A column scatter at column `col` read in that column is the update. -/
private theorem scatterCol_hit {α : Type} (x : S10x3.Idx → α) (idx : S1.Idx → BitVec 32) (upd : S10.Idx → α) (col : Fin 3)
    (hidx : ∀ k, idx k = BitVec.ofNat 32 col.val) (r : Fin 10) :
    Host.scatter scatter_S10x3_S1_S10_0_1_1_0 (fun _ b => b) x idx upd (ix2 r col) = upd (ix1 r) := by
  obtain rfl : idx = fun _ => BitVec.ofNat 32 col.val := funext hidx
  rw [dCol_eq]
  exact ScatterSet.scatter_set_hit dCol x _ upd (tgtCol col) (dCol_tgt col) (tgtCol_inj col) (ix1 r)

/-- A column scatter at column `col` read in another column is the operand. -/
private theorem scatterCol_miss {α : Type} (x : S10x3.Idx → α) (idx : S1.Idx → BitVec 32) (upd : S10.Idx → α) (col : Fin 3)
    (hidx : ∀ k, idx k = BitVec.ofNat 32 col.val) (r : Fin 10) (c' : Fin 3) (hc : c' ≠ col) :
    Host.scatter scatter_S10x3_S1_S10_0_1_1_0 (fun _ b => b) x idx upd (ix2 r c') = x (ix2 r c') := by
  obtain rfl : idx = fun _ => BitVec.ofNat 32 col.val := funext hidx
  rw [dCol_eq]
  exact ScatterSet.scatter_set_miss dCol x _ upd (tgtCol col) (dCol_tgt col) _
    (fun j h => hc (by have h1 := congrFun h ⟨1, by decide⟩; exact h1.symm))

/-- The single-element scatter at `(0, 2)` read there is the update. -/
private theorem scatterPt_hit {α : Type} (x : S10x3.Idx → α) (idx : S2.Idx → BitVec 32) (upd : S_.Idx → α)
    (hidx : ∀ k, idx k = (![0#32, 2#32] : Fin 2 → BitVec 32) (k 0)) :
    Host.scatter scatter_S10x3_S2_S__n_01_01_0 (fun _ b => b) x idx upd (ix2 0 2) = upd ix0 := by
  obtain rfl : idx = fun k => (![0#32, 2#32] : Fin 2 → BitVec 32) (k 0) := funext hidx
  rw [dPt_eq]
  exact ScatterSet.scatter_set_hit dPt x _ upd tgtPt dPt_tgt tgtPt_inj ix0

/-- The single-element scatter at `(0, 2)` read outside column 2 is the operand. -/
private theorem scatterPt_miss {α : Type} (x : S10x3.Idx → α) (idx : S2.Idx → BitVec 32) (upd : S_.Idx → α)
    (hidx : ∀ k, idx k = (![0#32, 2#32] : Fin 2 → BitVec 32) (k 0)) (r : Fin 10) (c' : Fin 3) (hc : c' ≠ 2) :
    Host.scatter scatter_S10x3_S2_S__n_01_01_0 (fun _ b => b) x idx upd (ix2 r c') = x (ix2 r c') := by
  obtain rfl : idx = fun k => (![0#32, 2#32] : Fin 2 → BitVec 32) (k 0) := funext hidx
  rw [dPt_eq]
  exact ScatterSet.scatter_set_miss dPt x _ upd tgtPt dPt_tgt _
    (fun j h => hc (by have h1 := congrFun h ⟨1, by decide⟩; exact h1.symm))

/-! ## The index operands -/

/-- A broadcast integer constant is that constant everywhere. -/
private theorem idxConst_apply (b : BitVec 32) (k : S1.Idx) :
    (broadcastInDim S1 ![] bcast_S_S1 (constantI S_ 32 b) : S1.Idx → BitVec 32) k = b := rfl

/-- The concatenated index vector is `(0, 2)`. -/
private theorem idxPair_apply (k : S2.Idx) :
    (concatenate S2 0 [⟨S1, (broadcastInDim S1 ![] bcast_S_S1 (constantI S_ 32 0#32) : S1.Idx → BitVec 32)⟩,
        ⟨S1, (broadcastInDim S1 ![] bcast_S_S1 (constantI S_ 32 2#32) : S1.Idx → BitVec 32)⟩] concatenates_S1_S1_S2_d0 : S2.Idx → BitVec 32) k
      = (![0#32, 2#32] : Fin 2 → BitVec 32) (k 0) := by
  obtain ⟨a, rfl⟩ : ∃ a : Fin 2, k = ix1 a := ⟨k 0, eq_ix1 k⟩
  fin_cases a
  · exact (concatenate_pair_apply_left (0 : Fin S2.rank) _ _ concatenates_S1_S1_S2_d0 _ rfl (ix1 (0 : Fin 1))
      (fun b => by match b with | ⟨0, _⟩ => rfl)).trans (idxConst_apply _ _)
  · exact (concatenate_pair_apply_right (0 : Fin S2.rank) _ _ concatenates_S1_S1_S2_d0 _ rfl rfl (ix1 (0 : Fin 1))
      (fun b hb => by match b with | ⟨0, _⟩ => exact absurd rfl hb) rfl).trans (idxConst_apply _ _)

/-! ## The packed bias array as the host operations' term -/

/-- Zeros, then `b1` into column 0, then `b2` into column 1, then `b3` at `(0, 2)`. -/
private theorem V_v9_eq (c : Dev nD) :
    (V m c main_v9 : S10x3.Idx → EReal) =
      Host.scatter scatter_S10x3_S2_S__n_01_01_0 (fun _ b => b)
        (Host.scatter scatter_S10x3_S1_S10_0_1_1_0 (fun _ b => b)
          (Host.scatter scatter_S10x3_S1_S10_0_1_1_0 (fun _ b => b)
            (broadcastInDim S10x3 ![] bcast_S_S10x3 (constant (F := Ideal) S_ .f32 0x00000000#32) : S10x3.Idx → EReal)
            (broadcastInDim S1 ![] bcast_S_S1 (constantI S_ 32 0#32) : S1.Idx → BitVec 32)
            (m ((c : Thread nD τ).loc main_arg2) : S10.Idx → EReal))
          (broadcastInDim S1 ![] bcast_S_S1 (constantI S_ 32 1#32) : S1.Idx → BitVec 32)
          (m ((c : Thread nD τ).loc main_arg4) : S10.Idx → EReal))
        (concatenate S2 0 [⟨S1, (broadcastInDim S1 ![] bcast_S_S1 (constantI S_ 32 0#32) : S1.Idx → BitVec 32)⟩,
            ⟨S1, (broadcastInDim S1 ![] bcast_S_S1 (constantI S_ 32 2#32) : S1.Idx → BitVec 32)⟩] concatenates_S1_S1_S2_d0 : S2.Idx → BitVec 32)
        (shapeCast S_ (m ((c : Thread nD τ).loc main_arg6) : S1.Idx → EReal) shapeCasts_S1_S_ : S_.Idx → EReal) := by
  show StableHlo.after hostOps0 (fun b => m (c, b)) (Proc.devRef .tc main_v9) = _
  after_results
  rfl

/-! ## The packed bias array read at an index -/

/-- Column 0 of the packed biases is the argument `b1`. -/
theorem V_v9_col0 (c : Dev nD) (r : Fin 10) :
    (V m c main_v9 : S10x3.Idx → EReal) (ix2 r 0) = (m ((c : Thread nD τ).loc main_arg2) : S10.Idx → EReal) (ix1 r) := by
  rw [V_v9_eq]
  rw [scatterPt_miss _ _ _ idxPair_apply r 0 (by decide)]
  rw [scatterCol_miss _ _ _ 1 (idxConst_apply 1#32) r 0 (by decide)]
  exact scatterCol_hit _ _ _ 0 (idxConst_apply 0#32) r

/-- Column 1 of the packed biases is the argument `b2`. -/
theorem V_v9_col1 (c : Dev nD) (r : Fin 10) :
    (V m c main_v9 : S10x3.Idx → EReal) (ix2 r 1) = (m ((c : Thread nD τ).loc main_arg4) : S10.Idx → EReal) (ix1 r) := by
  rw [V_v9_eq]
  rw [scatterPt_miss _ _ _ idxPair_apply r 1 (by decide)]
  exact scatterCol_hit _ _ _ 1 (idxConst_apply 1#32) r

/-- Entry (0, 2) of the packed biases is the argument `b3`. -/
theorem V_v9_b3 (c : Dev nD) :
    (V m c main_v9 : S10x3.Idx → EReal) (ix2 0 2) = (m ((c : Thread nD τ).loc main_arg6) : S1.Idx → EReal) (ix1 0) := by
  rw [V_v9_eq]
  rw [scatterPt_hit _ _ _ idxPair_apply]
  exact shapeCast_apply _ shapeCasts_S1_S_ ix0 (ix1 0) (by decide)

end Cert.ReferenceIdeal.HostVal

end
-- ==== Proof.RBody.lean ====
/-
  What the reference's body stores, read at an entry of its one output row: on the extended reals the stored value
  at lane `q` is the perceptron of the loaded weights and bias columns applied to column `q` of the loaded input block.
-/
import proofs.«154862_g2000409670772848_pallaspilot1_20_3_alg».proof.Proof.Gen.ReferenceIdeal.Skeleton
import proofs.«154862_g2000409670772848_pallaspilot1_20_3_alg».proof.Proof.Spec
import proofs.«154862_g2000409670772848_pallaspilot1_20_3_alg».proof.Proof.LibMatmulPlain
import Idealize.ShloMosaic.Lib.Pipeline.Value
import Idealize.ShloMosaic.Lib.ValueLayout

noncomputable section

namespace Cert.ReferenceIdeal.BodyVal

open Idealize.ShloMosaic Idealize.ShloMosaic.ValueIdx
open Cert.ReferenceIdeal Cert.ReferenceIdeal.Gen

/-- A column `[a, 1]` broadcast along the lanes to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into zero plus a bias column, read at `(p, q)`. -/
private theorem dense_bias_apply {M K N : ℕ} (W : FVec Ideal ⟨2, ![M, K]⟩ .f32) (X : FVec Ideal ⟨2, ![K, N]⟩ .f32)
    (B : FVec Ideal ⟨2, ![M, 1]⟩ .f32) (hb : (⟨2, ![M, 1]⟩ : Shape).Broadcasts ⟨2, ![M, N]⟩) (p : Fin M) (q : Fin N) :
    addf (matmul (DotDims.plain M K N) none W X (constant (F := Ideal) ⟨2, ![M, N]⟩ .f32 0x00000000#32))
        (broadcastTo ⟨2, ![M, N]⟩ B hb) (ix2 p q)
      = (∑ k : Fin K, W (ix2 p k) * X (ix2 k q)) + B (ix2 p 0) := by
  show FloatOps.matmul (DotDims.plain M K N) none W X (constant (F := Ideal) ⟨2, ![M, N]⟩ .f32 0x00000000#32) (ix2 p q)
      + broadcastTo ⟨2, ![M, N]⟩ B hb (ix2 p q) = _
  rw [MatmulPlain.matmul_plain_zero_apply, broadcastTo_a1_ab_apply]

/-- The same clipped below at zero. -/
private theorem dense_bias_relu_apply {M K N : ℕ} (W : FVec Ideal ⟨2, ![M, K]⟩ .f32) (X : FVec Ideal ⟨2, ![K, N]⟩ .f32)
    (B : FVec Ideal ⟨2, ![M, 1]⟩ .f32) (hb : (⟨2, ![M, 1]⟩ : Shape).Broadcasts ⟨2, ![M, N]⟩) (p : Fin M) (q : Fin N) :
    maximumf (addf (matmul (DotDims.plain M K N) none W X (constant (F := Ideal) ⟨2, ![M, N]⟩ .f32 0x00000000#32))
        (broadcastTo ⟨2, ![M, N]⟩ B hb)) (broadcast ⟨2, ![M, N]⟩ (Scalar.ofBits (F := Ideal) .f32 0x00000000#32)) (ix2 p q)
      = max ((∑ k : Fin K, W (ix2 p k) * X (ix2 k q)) + B (ix2 p 0)) 0 := by
  show max (addf (matmul (DotDims.plain M K N) none W X (constant (F := Ideal) ⟨2, ![M, N]⟩ .f32 0x00000000#32))
      (broadcastTo ⟨2, ![M, N]⟩ B hb) (ix2 p q)) (Ideal.ofBits .f32 0x00000000#32) = _
  rw [dense_bias_apply, Ideal.ofBits_zero_f32]

/-- The first hidden layer as the body computes it. -/
private def h1v (x : FVec Ideal S2x32768 .f32) (c1 : FVec Ideal S10x1 .f32) (w1 : FVec Ideal S10x2 .f32) : FVec Ideal S10x32768 .f32 :=
  maximumf (addf (matmul dot_S10x2_S2x32768_S10x32768_1_0_0_1_n_n none w1 x (constant (F := Ideal) S10x32768 .f32 0x00000000#32))
    (broadcastTo S10x32768 (shapeCast S10x1 c1 Facts₀.shapeCasts_S10x1_S10x1) Facts₀.broadcasts_S10x1_S10x32768))
    (broadcast S10x32768 (Scalar.ofBits (F := Ideal) .f32 0x00000000#32))

/-- The second hidden layer as the body computes it. -/
private def h2v (c2 : FVec Ideal S10x1 .f32) (w2 : FVec Ideal S10x10 .f32) (h1 : FVec Ideal S10x32768 .f32) : FVec Ideal S10x32768 .f32 :=
  maximumf (addf (matmul dot_S10x10_S10x32768_S10x32768_1_0_0_1_n_n none w2 h1 (constant (F := Ideal) S10x32768 .f32 0x00000000#32))
    (broadcastTo S10x32768 (shapeCast S10x1 c2 Facts₀.shapeCasts_S10x1_S10x1) Facts₀.broadcasts_S10x1_S10x32768))
    (broadcast S10x32768 (Scalar.ofBits (F := Ideal) .f32 0x00000000#32))

/-- The output row as the body computes it. -/
private def outv (c3 : FVec Ideal S1x1 .f32) (w3 : FVec Ideal S1x10 .f32) (h2 : FVec Ideal S10x32768 .f32) : FVec Ideal S1x32768 .f32 :=
  addf (matmul dot_S1x10_S10x32768_S1x32768_1_0_0_1_n_n none w3 h2 (constant (F := Ideal) S1x32768 .f32 0x00000000#32))
    (broadcastTo S1x32768 (shapeCast S1x1 c3 Facts₀.shapeCasts_S1x1_S1x1) Facts₀.broadcasts_S1x1_S1x32768)

/-- The stored value is the output row over the two clipped layers. -/
private theorem pay1_eq (x : Vec Ideal S2x32768 .f32) (c1 c2 : Vec Ideal S10x1 .f32) (c3 : Vec Ideal S1x1 .f32)
    (w1 : Vec Ideal S10x2 .f32) (w2 : Vec Ideal S10x10 .f32) (w3 : Vec Ideal S1x10 .f32) :
    k0_pay1 (F := Ideal) x c1 c2 c3 w1 w2 w3 = outv c3 w3 (h2v c2 w2 (h1v x c1 w1)) := rfl

/-- Layer one at `(l, q)`. -/
private theorem h1v_apply (x : FVec Ideal S2x32768 .f32) (c1 : FVec Ideal S10x1 .f32) (w1 : FVec Ideal S10x2 .f32)
    (l : Fin 10) (q : Fin 32768) :
    h1v x c1 w1 (ix2 l q)
      = Cert.Mlp.hid1 (fun l i => w1 (ix2 l i)) (fun l => c1 (ix2 l 0)) (fun i => x (ix2 i q)) l := by
  unfold h1v
  rw [shapeCast_self]
  exact dense_bias_relu_apply (M := 10) (K := 2) (N := 32768) w1 x c1 _ l q

/-- Layer two at `(k, q)`. -/
private theorem h2v_apply (c2 : FVec Ideal S10x1 .f32) (w2 : FVec Ideal S10x10 .f32) (h1 : FVec Ideal S10x32768 .f32)
    (k : Fin 10) (q : Fin 32768) :
    h2v c2 w2 h1 (ix2 k q)
      = Cert.Mlp.hid2 (fun k l => w2 (ix2 k l)) (fun k => c2 (ix2 k 0)) (fun l => h1 (ix2 l q)) k := by
  unfold h2v
  rw [shapeCast_self]
  exact dense_bias_relu_apply (M := 10) (K := 10) (N := 32768) w2 h1 c2 _ k q

/-- The output row at `(0, q)`. -/
private theorem outv_apply (c3 : FVec Ideal S1x1 .f32) (w3 : FVec Ideal S1x10 .f32) (h2 : FVec Ideal S10x32768 .f32)
    (q : Fin 32768) :
    outv c3 w3 h2 (ix2 0 q) = Cert.Mlp.outp (fun k => w3 (ix2 0 k)) (c3 (ix2 0 0)) (fun k => h2 (ix2 k q)) := by
  unfold outv
  rw [shapeCast_self]
  exact dense_bias_apply (M := 1) (K := 10) (N := 32768) w3 h2 c3 _ 0 q

attribute [local irreducible] h1v h2v outv

/-- The stored row at lane `q`: three matrix products into zero, each followed by its bias, two maxima with zero. -/
theorem pay1_apply (x : Vec Ideal S2x32768 .f32) (c1 c2 : Vec Ideal S10x1 .f32) (c3 : Vec Ideal S1x1 .f32)
    (w1 : Vec Ideal S10x2 .f32) (w2 : Vec Ideal S10x10 .f32) (w3 : Vec Ideal S1x10 .f32) (q : Fin 32768) :
    (k0_pay1 (F := Ideal) x c1 c2 c3 w1 w2 w3 : S1x32768.Idx → EReal) (ix2 0 q)
      = Cert.Mlp.mlp (fun l i => w1 (ix2 l i)) (fun l => c1 (ix2 l 0)) (fun k l => w2 (ix2 k l)) (fun k => c2 (ix2 k 0))
          (fun k => w3 (ix2 0 k)) (c3 (ix2 0 0)) (fun i => x (ix2 i q)) := by
  rw [pay1_eq]
  refine (outv_apply c3 w3 _ q).trans ?_
  unfold Cert.Mlp.mlp
  refine congrArg (Cert.Mlp.outp (fun k => w3 (ix2 0 k)) (c3 (ix2 0 0))) ?_
  funext k
  refine (h2v_apply c2 w2 _ k q).trans ?_
  refine congrArg (fun h => Cert.Mlp.hid2 (fun k l => w2 (ix2 k l)) (fun k => c2 (ix2 k 0)) h k) ?_
  funext l
  exact h1v_apply x c1 w1 l q

end Cert.ReferenceIdeal.BodyVal

end
-- ==== Proof.RValue.lean ====
/-
  The idealized reference's run, read: its pallas_call writes, at grid point `t`, lanes `t · 32768 … t · 32768 + 32767`
  of its one output row; every lane `j` ends at the perceptron of the weight arrays and of the three bias pieces the
  body reads out of the packed bias block (column 0, column 1, entry (0, 2)) on column `j` of the input; the 128 blocks
  tile the row; the two reshapes after the call relabel entry `(0, j)` as `(j, 0)`. With the packed block read as the
  argument biases the result is the specification's.
-/
import proofs.«154862_g2000409670772848_pallaspilot1_20_3_alg».proof.Proof.Gen.ReferenceIdeal.Frame
import proofs.«154862_g2000409670772848_pallaspilot1_20_3_alg».proof.Proof.Spec
import proofs.«154862_g2000409670772848_pallaspilot1_20_3_alg».proof.Proof.RHost
import proofs.«154862_g2000409670772848_pallaspilot1_20_3_alg».proof.Proof.RBody
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.ReferenceIdeal.RunVal

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The output row as one function of the launch arrays: lane `j` is the perceptron on column `j`, its biases read
    out of the packed block. -/
def row (c : Dev nD) : S1x4194304.Idx → EReal := fun i =>
  Cert.Mlp.mlp (fun l a => (V m c main_arg1 : S10x2.Idx → EReal) (ix2 l a))
    (fun l => (V m c main_v9 : S10x3.Idx → EReal) (ix2 l 0))
    (fun k l => (V m c main_arg3 : S10x10.Idx → EReal) (ix2 k l))
    (fun k => (V m c main_v9 : S10x3.Idx → EReal) (ix2 k 1))
    (fun k => (V m c main_arg5 : S1x10.Idx → EReal) (ix2 0 k))
    ((V m c main_v9 : S10x3.Idx → EReal) (ix2 0 2))
    (fun a => (V m c main_arg0 : S2x4194304.Idx → EReal) (ix2 a (i 1)))

/-- Equal weights, biases and columns give equal values. -/
theorem mlp_congr {w1 w1' : Fin 10 → Fin 2 → EReal} {b1 b1' : Fin 10 → EReal} {w2 w2' : Fin 10 → Fin 10 → EReal}
    {b2 b2' : Fin 10 → EReal} {w3 w3' : Fin 10 → EReal} {b3 b3' : EReal} {x x' : Fin 2 → EReal}
    (h1 : w1 = w1') (h2 : b1 = b1') (h3 : w2 = w2') (h4 : b2 = b2') (h5 : w3 = w3') (h6 : b3 = b3') (h0 : x = x') :
    Cert.Mlp.mlp w1 b1 w2 b2 w3 b3 x = Cert.Mlp.mlp w1' b1' w2' b2' w3' b3' x' := by
  subst h1 h2 h3 h4 h5 h6 h0; rfl

/-- The printed index maps over the grid: the input and the output move along the lanes with the point, the weights stay. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The body's first bias load is column 0 of the packed block. -/
theorem ld_col0 (X : Vec Ideal S10x3 .f32) (l : Fin 10) : View.ld X r0_1 (ix2 l 0) = X (ix2 l 0) := by
  show X (r0_1.emb (ix2 l 0)) = X (ix2 l 0)
  congr 1
  funext d; apply Fin.ext
  match d with
  | ⟨0, _⟩ => show 0 + 1 * l.val = l.val; omega
  | ⟨1, _⟩ => show 0 + 1 * 0 = 0; omega

/-- The second is column 1. -/
theorem ld_col1 (X : Vec Ideal S10x3 .f32) (k : Fin 10) : View.ld X r0_2 (ix2 k 0) = X (ix2 k 1) := by
  show X (r0_2.emb (ix2 k 0)) = X (ix2 k 1)
  congr 1
  funext d; apply Fin.ext
  match d with
  | ⟨0, _⟩ => show 0 + 1 * k.val = k.val; omega
  | ⟨1, _⟩ => show 1 + 1 * 0 = 1; omega

/-- The third is entry (0, 2). -/
theorem ld_b3 (X : Vec Ideal S10x3 .f32) : View.ld X r0_3 (ix2 0 0) = X (ix2 0 2) := by
  show X (r0_3.emb (ix2 0 0)) = X (ix2 0 2)
  congr 1
  funext d; apply Fin.ext
  match d with
  | ⟨0, _⟩ => show 0 + 1 * 0 = 0; omega
  | ⟨1, _⟩ => show 2 + 1 * 0 = 2; omega

/-- The first weight block is the whole array. -/
theorem blk1 (c : Dev nD) (t : Fin cfg0.N) (l : Fin 10) (a : Fin 2) :
    iblk m c 1 t (ix2 l a) = (V m c main_arg1 : S10x2.Idx → EReal) (ix2 l a) := by
  obtain ⟨-, -, e0, e1, -⟩ := idx_facts t
  show V m c main_arg1 (((cfg0.win 1).blk t).view.emb (ix2 l a)) = V m c main_arg1 (ix2 l a)
  congr 1
  funext d; apply Fin.ext
  match d with
  | ⟨0, _⟩ => show win0_1.index t (0 : Fin 2) * 10 + 1 * l.val = l.val; omega
  | ⟨1, _⟩ => show win0_1.index t (1 : Fin 2) * 2 + 1 * a.val = a.val; omega

/-- The second weight block is the whole array. -/
theorem blk2 (c : Dev nD) (t : Fin cfg0.N) (k l : Fin 10) :
    iblk m c 2 t (ix2 k l) = (V m c main_arg3 : S10x10.Idx → EReal) (ix2 k l) := by
  obtain ⟨-, -, -, -, e0, e1, -⟩ := idx_facts t
  show V m c main_arg3 (((cfg0.win 2).blk t).view.emb (ix2 k l)) = V m c main_arg3 (ix2 k l)
  congr 1
  funext d; apply Fin.ext
  match d with
  | ⟨0, _⟩ => show win0_2.index t (0 : Fin 2) * 10 + 1 * k.val = k.val; omega
  | ⟨1, _⟩ => show win0_2.index t (1 : Fin 2) * 10 + 1 * l.val = l.val; omega

/-- The third weight block is the whole array. -/
theorem blk3 (c : Dev nD) (t : Fin cfg0.N) (k : Fin 10) :
    iblk m c 3 t (ix2 0 k) = (V m c main_arg5 : S1x10.Idx → EReal) (ix2 0 k) := by
  obtain ⟨-, -, -, -, -, -, e0, e1, -⟩ := idx_facts t
  show V m c main_arg5 (((cfg0.win 3).blk t).view.emb (ix2 0 k)) = V m c main_arg5 (ix2 0 k)
  congr 1
  funext d; apply Fin.ext
  match d with
  | ⟨0, _⟩ => show win0_3.index t (0 : Fin 2) * 1 + 1 * 0 = 0; omega
  | ⟨1, _⟩ => show win0_3.index t (1 : Fin 2) * 10 + 1 * k.val = k.val; omega

/-- The packed bias block is the whole array. -/
theorem blk4 (c : Dev nD) (t : Fin cfg0.N) (l : Fin 10) (a : Fin 3) :
    iblk m c 4 t (ix2 l a) = (V m c main_v9 : S10x3.Idx → EReal) (ix2 l a) := by
  obtain ⟨-, -, -, -, -, -, -, -, e0, e1, -⟩ := idx_facts t
  show V m c main_v9 (((cfg0.win 4).blk t).view.emb (ix2 l a)) = V m c main_v9 (ix2 l a)
  congr 1
  funext d; apply Fin.ext
  match d with
  | ⟨0, _⟩ => show win0_4.index t (0 : Fin 2) * 10 + 1 * l.val = l.val; omega
  | ⟨1, _⟩ => show win0_4.index t (1 : Fin 2) * 3 + 1 * a.val = a.val; omega

/-- The input block at point `t` holds lanes `t · 32768 + q` of the input. -/
theorem blk0 (c : Dev nD) (t : Fin cfg0.N) (a : Fin 2) (q : Fin 32768) (j : Fin 4194304) (hj : j.val = t.val * 32768 + q.val) :
    iblk m c 0 t (ix2 a q) = (V m c main_arg0 : S2x4194304.Idx → EReal) (ix2 a j) := by
  obtain ⟨e0, e1, -⟩ := idx_facts t
  show V m c main_arg0 (((cfg0.win 0).blk t).view.emb (ix2 a q)) = V m c main_arg0 (ix2 a j)
  congr 1
  funext d; apply Fin.ext
  match d with
  | ⟨0, _⟩ => show win0_0.index t (0 : Fin 2) * 2 + 1 * a.val = a.val; omega
  | ⟨1, _⟩ => show win0_0.index t (1 : Fin 2) * 32768 + 1 * q.val = j.val; omega

/-- WHAT POINT `t` WRITES BACK is block `t` of the row. -/
theorem flushed_eq (c : Dev nD) (t : Fin cfg0.N) :
    (dats m 0 c).flushed 5 t = ((cfg0.win 5).blk t).view.read (Elt Ideal) (row m c) := by
  show (cfg0.win 5).cut (grid0.coords t) ((dats m 0 c).after 5 t) = _
  rw [after0_5]
  unfold out0_5
  rw [View.canon_unit_zero hz]
  simp only [View.ld_unit_zero (S := S2x32768) hz, View.ld_unit_zero (S := S10x2) hz, View.ld_unit_zero (S := S10x10) hz,
    View.ld_unit_zero (S := S1x10) hz]
  funext y
  obtain ⟨p, q, rfl⟩ : ∃ (p : Fin 1) (q : Fin 32768), y = ix2 p q := ⟨y 0, y 1, eq_ix2 y⟩
  obtain rfl : p = 0 := Subsingleton.elim _ _
  show k0_pay1 (F := Ideal) (iblk m c 0 t) (View.ld (iblk m c 4 t) r0_1) (View.ld (iblk m c 4 t) r0_2) (View.ld (iblk m c 4 t) r0_3)
      (iblk m c 1 t) (iblk m c 2 t) (iblk m c 3 t) (ix2 0 q)
    = row m c (((cfg0.win 5).blk t).view.emb (ix2 0 q))
  refine (Cert.ReferenceIdeal.BodyVal.pay1_apply (iblk m c 0 t) (View.ld (iblk m c 4 t) r0_1) (View.ld (iblk m c 4 t) r0_2)
    (View.ld (iblk m c 4 t) r0_3) (iblk m c 1 t) (iblk m c 2 t) (iblk m c 3 t) q).trans ?_
  obtain ⟨-, -, -, -, -, -, -, -, -, -, e0, e1⟩ := idx_facts t
  exact mlp_congr (funext fun l => funext fun a => blk1 m c t l a)
    (funext fun l => (ld_col0 (iblk m c 4 t) l).trans (blk4 m c t l 0))
    (funext fun k => funext fun l => blk2 m c t k l)
    (funext fun k => (ld_col1 (iblk m c 4 t) k).trans (blk4 m c t k 1))
    (funext fun k => blk3 m c t k)
    ((ld_b3 (iblk m c 4 t)).trans (blk4 m c t 0 2))
    (funext fun a => blk0 m c t a q (((cfg0.win 5).blk t).view.emb (ix2 0 q) 1) (by
      show win0_5.index t (1 : Fin 2) * 32768 + 1 * q.val = t.val * 32768 + q.val
      omega))

/-- An index of the row is in point `t`'s block iff each coordinate is in the block's range on its axis. -/
theorem mem_blk (t : Fin cfg0.N) (i : S1x4194304.Idx) :
    i ∈ ((cfg0.win 5).blk t).view.set ↔ ∀ a : Fin 2, win0_5.index t a * S1x32768.size a ≤ (i a).val ∧ (i a).val < win0_5.index t a * S1x32768.size a + S1x32768.size a := by
  show i ∈ ((View.whole main_v10).slice (win0_5.rect t)).set ↔ _
  rw [View.set_slice_whole, Rect.mem_set_unit]
  exact Iff.rfl

/-- Every lane lies in the block of the point `lane / 32768`. -/
theorem cover (i : S1x4194304.Idx) : ∃ t : Fin cfg0.N, (cfg0.win 5).flush t = true ∧ i ∈ ((cfg0.win 5).blk t).view.set := by
  have hi0 : (i 0).val < 1 := (i 0).isLt
  have hi1 : (i 1).val < 4194304 := (i 1).isLt
  have hN : (i 1).val / 32768 < cfg0.N := by
    show (i 1).val / 32768 < grid0.N
    rw [N_0]; omega
  refine ⟨⟨(i 1).val / 32768, hN⟩, flush0_5 _, ?_⟩
  obtain ⟨-, -, -, -, -, -, -, -, -, -, e0, e1⟩ := idx_facts ⟨(i 1).val / 32768, hN⟩
  rw [mem_blk]
  intro a
  match a with
  | ⟨0, _⟩ => show win0_5.index ⟨(i 1).val / 32768, hN⟩ (0 : Fin 2) * 1 ≤ (i 0).val ∧ (i 0).val < win0_5.index ⟨(i 1).val / 32768, hN⟩ (0 : Fin 2) * 1 + 1; omega
  | ⟨1, _⟩ => show win0_5.index ⟨(i 1).val / 32768, hN⟩ (1 : Fin 2) * 32768 ≤ (i 1).val ∧ (i 1).val < win0_5.index ⟨(i 1).val / 32768, hN⟩ (1 : Fin 2) * 32768 + 32768; simp only [e1]; omega

/-- THE ROW after the pallas_call. -/
theorem final (c : Dev nD) : (dats m 0 c).arrAt 5 cfg0.N = row m c :=
  (dats m 0 c).arrAt_eq_of_cover 5 (row m c) (fun t _ => flushed_eq m c t) cover

/-- The program's result: the two reshapes after the call relabel lane `j` of the row as entry `(j, 0)`. -/
theorem tail (c : Dev nD) :
    Pipeline.afterTail₀ cfgs (dats m) 0 (V0 m) [hostOps1] c main_v12 = fun i : S4194304x1.Idx => row m c (ix2 0 (i 0)) := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.tc.devRef main_v10)
      = row m c := (Pipeline.withArrays_arr spec0 launch0.win.arr_inj c _ _ 5).trans (final m c)
  funext i
  obtain ⟨j, z, rfl⟩ : ∃ (j : Fin 4194304) (z : Fin 1), i = ix2 j z := ⟨i 0, i 1, eq_ix2 i⟩
  obtain rfl : z = 0 := Subsingleton.elim _ _
  show shapeCast S4194304x1 (shapeCast S4194304 (Pipeline.withArrays (cfgs 0).spec c (V0 m c)
      (fun w => (dats m 0 c).arrAt w (cfgs 0).N) (Proc.tc.devRef main_v10)) shapeCasts_S1x4194304_S4194304)
      shapeCasts_S4194304_S4194304x1 (ix2 j 0) = row m c (ix2 0 j)
  rw [shapeCast_apply _ _ (ix2 j (0 : Fin 1)) (ix1 j) (by
      rw [Shape.rowMajor_val_two, Shape.rowMajor_val_one]
      show j.val = j.val * 1 + 0
      omega),
    shapeCast_apply _ _ (ix1 j) (ix2 (0 : Fin 1) j) (by
      rw [Shape.rowMajor_val_two, Shape.rowMajor_val_one]
      show 0 * 4194304 + j.val = j.val
      omega)]
  exact congrFun hw _

/-- The row, relabelled, is the specification's result: the weights are the arguments as launched, the packed block
    holds the argument biases where the body reads them. -/
theorem row_eq (c : Dev nD) :
    (fun i : S4194304x1.Idx => row m c (ix2 0 (i 0)))
      = Cert.Mlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  exact mlp_congr (funext fun l => funext fun a => congrFun (V_main_arg1 m c) (ix2 l a))
    (funext fun l => Cert.ReferenceIdeal.HostVal.V_v9_col0 m c l)
    (funext fun k => funext fun l => congrFun (V_main_arg3 m c) (ix2 k l))
    (funext fun k => Cert.ReferenceIdeal.HostVal.V_v9_col1 m c k)
    (funext fun k => congrFun (V_main_arg5 m c) (ix2 0 k))
    (Cert.ReferenceIdeal.HostVal.V_v9_b3 m c)
    (funext fun a => congrFun (V_main_arg0 m c) (ix2 a (i 0)))

/-- THE RUN, READ: every weakly fair execution ends with the result at the specification's function of the
    arguments, and the arguments as launched. -/
theorem run : θ_run defs (onTc (τ := τ) (main (F := Ideal))) ⟨m, fun _ => 0, ρ⟩ (fun r => ∀ c : Dev nD,
      r.2.mem ((c.tc : Thread nD τ).loc main_v12)
        = Cert.Mlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v12 (Pipeline.mem_restRefs_of main_v12 (by decide) (by decide))).trans ((tail m c).trans (row_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end Cert.ReferenceIdeal.RunVal

end
-- ==== Proof.lean ====
/-
  The certificate of a 2 → 10 → 10 → 1 perceptron over four million columns, batch on the lanes.

  The kernel folds the second and third layers' biases into sixteen-row augmented weight matrices and carries a hidden
  unit that is constantly one; the reference adds each bias after its product and keeps them packed in one small
  array. On the extended reals the two compute the same number on every column (Proof/Spec.lean: `0 · a = 0`,
  `a · 1 = a`, `max 1 0 = 1`, sums regrouped), so the claim needs nothing of the inputs and the precondition is never opened.
  Each program's run is read as "the result is `Cert.Mlp.result` of the arguments" (Proof/KValue.lean, Proof/RValue.lean):
  what a grid point writes back is a block of one row-function, the 128 blocks tile the row, the reshapes after the call
  relabel it. The three frames are the generated ones; the ideal pass rewrote nothing, so `preserves` is `True`.
-/
import proofs.«154862_g2000409670772848_pallaspilot1_20_3_alg».proof.Defs
import proofs.«154862_g2000409670772848_pallaspilot1_20_3_alg».proof.Proof.Gen.Kernel.Frame
import proofs.«154862_g2000409670772848_pallaspilot1_20_3_alg».proof.Proof.Gen.Pre_finite_inputs
import proofs.«154862_g2000409670772848_pallaspilot1_20_3_alg».proof.Proof.KValue
import proofs.«154862_g2000409670772848_pallaspilot1_20_3_alg».proof.Proof.RValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- Both idealized programs end with the result at the specification's function of their arguments; the arguments agree. -/
theorem algebraic : Cert.algebraic_KernelIdeal_ReferenceIdeal := by
  intro m ρ m' ρ' _ hagree
  refine ⟨_, Cert.KernelIdeal.RunVal.run m ρ, ?_⟩
  refine (θ_run Cert.ReferenceIdeal.defs _ _).mono (fun _ h c => ⟨(h c).1.trans ?_, (h c).2⟩)
    (Cert.ReferenceIdeal.RunVal.run m' ρ')
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
